-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 50000#32
  let main_v53 : IVec S800000 32 := broadcastInDim S800000 ![] bcast_S_S800000 main_c_20
  let main_v54 : IVec S800000 1 := cmpi .slt main_arg1 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg1 : IVec S800000 32) (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg1 main_v49
  fn_part3 (F := F) main_arg1 main_v48 main_v50

def fn_part1 {F : FTy → Type} [FloatOps F] (main_arg1 : IVec S800000 32) (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 118
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x128, .f32⟩
  | .hbm, ⟨44, _⟩ => ⟨S800000x128, .i1⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S1, .i32⟩
  | .hbm, ⟨65, _⟩ => ⟨S_, .i32⟩
  | .hbm, ⟨66, _⟩ => ⟨S800000x1, .i32⟩
  | .hbm, ⟨67, _⟩ => ⟨S800000x1, .i1⟩
  | .hbm, ⟨68, _⟩ => ⟨S1x1, .i32⟩
  | .hbm, ⟨69, _⟩ => ⟨S800000x1, .i32⟩
  | .hbm, ⟨70, _⟩ => ⟨S800000x1, .i1⟩
  | .hbm, ⟨71, _⟩ => ⟨S800000x1, .i1⟩
  | .hbm, ⟨72, _⟩ => ⟨S_, .i1⟩
  | .hbm, ⟨73, _⟩ => ⟨S800000, .i1⟩
  | .hbm, ⟨74, _⟩ => ⟨S800000x128, .f32⟩
  | .hbm, ⟨75, _⟩ => ⟨S800000x128, .i1⟩
  | .hbm, ⟨76, _⟩ => ⟨S_, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S1, .i32⟩
  | .hbm, ⟨96, _⟩ => ⟨S_, .i32⟩
  | .hbm, ⟨97, _⟩ => ⟨S800000x1, .i32⟩
  | .hbm, ⟨98, _⟩ => ⟨S800000x1, .i1⟩
  | .hbm, ⟨99, _⟩ => ⟨S1x1, .i32⟩
  | .hbm, ⟨100, _⟩ => ⟨S800000x1, .i32⟩
  | .hbm, ⟨101, _⟩ => ⟨S800000x1, .i1⟩
  | .hbm, ⟨102, _⟩ => ⟨S800000x1, .i1⟩
  | .hbm, ⟨103, _⟩ => ⟨S_, .i1⟩
  | .hbm, ⟨104, _⟩ => ⟨S800000, .i1⟩
  | .hbm, ⟨105, _⟩ => ⟨S800000x128, .f32⟩
  | .hbm, ⟨106, _⟩ => ⟨S800000x128, .i1⟩
  | .hbm, ⟨107, _⟩ => ⟨S_, .f32⟩
  | .hbm, ⟨108, _⟩ => ⟨S800000x128, .f32⟩
  | .hbm, ⟨109, _⟩ => ⟨S800000x128, .f32⟩
  | .hbm, ⟨110, _⟩ => ⟨S_, .f32⟩
  | .hbm, ⟨111, _⟩ => ⟨S50000x128, .f32⟩
  | .hbm, ⟨112, _⟩ => ⟨S800000x1, .i32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S1x64, .f32⟩
  | .hbm, ⟨117, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v9 : Ref sig .tc := ⟨.hbm, 47, rfl⟩
abbrev main_cst_3 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v17 : Ref sig .tc := ⟨.hbm, 78, rfl⟩
abbrev main_cst_4 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v25 : Ref sig .tc := ⟨.hbm, 109, rfl⟩
abbrev main_cst_5 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000, .f32⟩
  | .hbm, ⟨52, _⟩ => ⟨S50000x1, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000, .f32⟩
  | .hbm, ⟨86, _⟩ => ⟨S50000x1, .f32⟩
  | .hbm, ⟨87, _⟩ => ⟨S50000x1, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KHostDefs.lean ====
/-
  The host-side neighbour aggregation of `KernelIdeal`, named once as functions of the arrays it reads, so that the
  certificate can carry it as one opaque term.  Edge e sends row idx(e) of `h` to node dst(e); a node's
  aggregate is the sum of the rows sent to it, times the reciprocal of max(in-degree, 1).
-/
import proofs.«410790_j17428977287557_1_alg».proof.KernelIdeal

noncomputable section

namespace Cert.KernelIdeal.HostChain

open Cert.KernelIdeal Idealize.ShloMosaic Idealize.ShloMosaic.TcCoe

variable [Cert.KernelIdeal.Facts]
open Cert.KernelIdeal.Facts₀ Cert.KernelIdeal.Facts
variable {F : FTy → Type} [FloatOps F]

/-- 1 / max(in-degree, 1) per node, as a column: the in-degree is the scatter-add of ones along `dst`. -/
def invDeg (dst : IVec S800000 32) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- The source indices with a negative index counted from the end (src + 50000 where src < 0), as a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One row of `h` per edge: row wrapIdx(e), the index clamped into range by the gather itself. -/
def gatherRows (h : FVec F S50000x128 .f32) (src : IVec S800000 32) : FVec F S800000x128 .f32 :=
  Host.gather gather_S50000x128_S800000x1_S800000x128_1_0_n_n_0_1_1128 h (wrapIdx src)

/-- The rows summed into their destination nodes and scaled by the reciprocal degree column `inv`. -/
def aggregate (rows : FVec F S800000x128 .f32) (dst : IVec S800000 32) (inv : FVec F S50000x1 .f32) : FVec F S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) rows)
    (broadcastInDim S50000x128 ![0, 1] bcast_S50000x1_S50000x128_0_1 inv)

/-- Which edges carry an index inside 0 … 49999 after the wrap-around. -/
def inRange (src : IVec S800000 32) : IVec S800000 1 :=
  Host.reduce IntOp.andi
    (andi (cmpi .sge (wrapIdx src) (broadcastInDim S800000x1 ![] bcast_S_S800000x1 (constantI S_ 32 0#32)))
      (cmpi .sle (wrapIdx src)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- One row of `h` per edge, an edge whose index is out of range getting the fill word instead of a row. -/
def takeRows (h : FVec F S50000x128 .f32) (src : IVec S800000 32) : FVec F S800000x128 .f32 :=
  select (broadcastInDim S800000x128 ![0] bcast_S800000_S800000x128_0 (inRange src)) (gatherRows h src)
    (broadcastInDim S800000x128 ![] bcast_S_S800000x128 (constant S_ .f32 0x7FC00000#32))

end Cert.KernelIdeal.HostChain

end
-- ==== Proof.KHost.lean ====
/-
  What each of the three regions finds in its input arrays when it is entered, read back to the launch memory:
  the node features (the arguments, or the previous region's output array), their neighbour aggregation, the two
  weight matrices as launched, and the bias as a one-row array.  And the result buffer at the end of the run is
  the third region's output array.
-/
import proofs.«410790_j17428977287557_1_alg».proof.Proof.Gen.KernelIdeal.Frame
import proofs.«410790_j17428977287557_1_alg».proof.Proof.KHostDefs
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Cert.KernelIdeal.HostChain
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What each host stretch leaves unchanged

A stretch rewrites the buffers of its own operations' results and no other: a reference outside that list holds
after the stretch what it held before, whatever the contents `W` the stretch starts from. -/

/-- The references the degree stretch writes. -/
abbrev written0 : List (Ref sig .tc) :=
  [main_cst, main_v0, main_cst_0, main_v1, main_v2, main_v3, main_cst_1, main_v4, main_v5, main_cst_2, main_v6, main_v7, main_v8]
theorem keeps0 (W : Valuation τ sig (Elt Ideal)) {r : Ref sig .tc} (h : r ∉ written0) :
    StableHlo.after hostOps0 W (Proc.devRef .tc r) = W (Proc.devRef .tc r) :=
  StableHlo.after_of_writes_sub hostOps0 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- The references the first row selection writes. -/
abbrev written0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v9]
theorem keeps0_1 (W : Valuation τ sig (Elt Ideal)) {r : Ref sig .tc} (h : r ∉ written0_1) :
    StableHlo.after hostOps0_1 W (Proc.devRef .tc r) = W (Proc.devRef .tc r) :=
  StableHlo.after_of_writes_sub hostOps0_1 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- The references the first aggregation stretch writes. -/
abbrev written0_2 : List (Ref sig .tc) :=
  [main_cst_3, main_v10, main_v11, main_v12, main_v13, main_v14, main_v15]
theorem keeps0_2 (W : Valuation τ sig (Elt Ideal)) {r : Ref sig .tc} (h : r ∉ written0_2) :
    StableHlo.after hostOps0_2 W (Proc.devRef .tc r) = W (Proc.devRef .tc r) :=
  StableHlo.after_of_writes_sub hostOps0_2 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- The references the second row selection writes. -/
abbrev written1 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]
theorem keeps1 (W : Valuation τ sig (Elt Ideal)) {r : Ref sig .tc} (h : r ∉ written1) :
    StableHlo.after hostOps1 W (Proc.devRef .tc r) = W (Proc.devRef .tc r) :=
  StableHlo.after_of_writes_sub hostOps1 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- The references the second aggregation stretch writes. -/
abbrev written1_1 : List (Ref sig .tc) :=
  [main_cst_4, main_v18, main_v19, main_v20, main_v21, main_v22, main_v23]
theorem keeps1_1 (W : Valuation τ sig (Elt Ideal)) {r : Ref sig .tc} (h : r ∉ written1_1) :
    StableHlo.after hostOps1_1 W (Proc.devRef .tc r) = W (Proc.devRef .tc r) :=
  StableHlo.after_of_writes_sub hostOps1_1 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- The references the third row selection writes. -/
abbrev written2 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v25]
theorem keeps2 (W : Valuation τ sig (Elt Ideal)) {r : Ref sig .tc} (h : r ∉ written2) :
    StableHlo.after hostOps2 W (Proc.devRef .tc r) = W (Proc.devRef .tc r) :=
  StableHlo.after_of_writes_sub hostOps2 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- The references the third aggregation stretch writes. -/
abbrev written2_1 : List (Ref sig .tc) :=
  [main_cst_5, main_v26, main_v27, main_v28, main_v29, main_v30, main_v31]
theorem keeps2_1 (W : Valuation τ sig (Elt Ideal)) {r : Ref sig .tc} (h : r ∉ written2_1) :
    StableHlo.after hostOps2_1 W (Proc.devRef .tc r) = W (Proc.devRef .tc r) :=
  StableHlo.after_of_writes_sub hostOps2_1 W (by
    simp only [List.Forall, StableHlo.nullary_writes, StableHlo.unary_writes, StableHlo.binary_writes, StableHlo.ternary_writes, StableHlo.reshape_writes, Finset.singleton_subset_iff, List.mem_toFinset]
    repeat' apply And.intro
    all_goals exact List.mem_map_of_mem (by decide)) h

/-- A value written to a typed reference's buffer and read back at the reference's type is the value. -/
theorem ofBuf_toBuf {Val : EltTy → Type} {T : BufTy} (x : StableHlo.TRef sig T) (v : T.Contents Val) :
    x.ofBuf (x.toBuf v) = v := by
  obtain ⟨r, rfl, _, _⟩ := x; rfl

/-! ## What the stretches compute, from any contents `W` -/

/-- The degree stretch leaves the reciprocal-degree column of the destinations in `main_v8`. -/
theorem invDeg_read (W : Valuation τ sig (Elt Ideal)) :
    StableHlo.after hostOps0 W (Proc.devRef .tc main_v8) = invDeg (F := Ideal) (W (Proc.devRef .tc main_arg2)) := by
  after_results; rfl

/-- The row selection `hostOps0_1` leaves `takeRows` of its two operands in its result buffer: the operations' results
    read one after the other are the terms of `wrapIdx`, `inRange`, `gatherRows` and the final select. -/
theorem take0_read (W : Valuation τ sig (Elt Ideal)) :
    StableHlo.after hostOps0_1 W (Proc.devRef .tc main_v9)
      = takeRows (F := Ideal) (W (Proc.devRef .tc main_arg0)) (W (Proc.devRef .tc main_arg1)) := by
  have eh : (StableHlo.TRef.of main_arg0 : StableHlo.TRef sig ⟨S50000x128, .f32⟩).ofBuf (W (Proc.devRef .tc main_arg0))
      = W (Proc.devRef .tc main_arg0) := rfl
  have es : (StableHlo.TRef.of main_arg1 : StableHlo.TRef sig ⟨S800000, .i32⟩).ofBuf (W (Proc.devRef .tc main_arg1))
      = W (Proc.devRef .tc main_arg1) := rfl
  have eo : ∀ X : (⟨S800000x128, .f32⟩ : BufTy).Contents (Elt Ideal),
      (StableHlo.TRef.of main_v9 : StableHlo.TRef sig ⟨S800000x128, .f32⟩).toBuf X = X := fun _ => rfl
  after_results_simp
  simp only [ofBuf_toBuf, eh, es, eo]
  rfl

/-- The aggregation stretch `hostOps0_2` leaves `aggregate` of the selected rows, the destinations and the
    reciprocal-degree column in `main_v14`. -/
theorem agg0_read (W : Valuation τ sig (Elt Ideal)) :
    StableHlo.after hostOps0_2 W (Proc.devRef .tc main_v14)
      = aggregate (F := Ideal) (W (Proc.devRef .tc main_v9)) (W (Proc.devRef .tc main_arg2)) (W (Proc.devRef .tc main_v8)) := by
  after_results; rfl

/-- The same stretch reshapes the bias vector `main_arg5` to one row: entry (0, j) of `main_v15` is entry j. -/
theorem bias0_read (W : Valuation τ sig (Elt Ideal)) (j : Fin 128) :
    StableHlo.after hostOps0_2 W (Proc.devRef .tc main_v15) (ix2 (0 : Fin 1) j) = W (Proc.devRef .tc main_arg5) (ix1 j) := by
  have e : (StableHlo.after hostOps0_2 W (Proc.devRef .tc main_v15) : S1x128.Idx → Elt Ideal .f32)
      = shapeCast S1x128 (W (Proc.devRef .tc main_arg5) : S128.Idx → Elt Ideal .f32) shapeCasts_S128_S1x128 := by
    after_results; rfl
  exact (congrFun e _).trans (shapeCast_apply _ _ _ (ix1 j) (by
    rw [Shape.rowMajor_val_two, Shape.rowMajor_val_one]; show j.val = 0 * 128 + j.val; omega))

/-- The row selection `hostOps1` leaves `takeRows` of its two operands in its result buffer: the operations' results
    read one after the other are the terms of `wrapIdx`, `inRange`, `gatherRows` and the final select. -/
theorem take1_read (W : Valuation τ sig (Elt Ideal)) :
    StableHlo.after hostOps1 W (Proc.devRef .tc main_v17)
      = takeRows (F := Ideal) (W (Proc.devRef .tc main_v16)) (W (Proc.devRef .tc main_arg1)) := by
  have eh : (StableHlo.TRef.of main_v16 : StableHlo.TRef sig ⟨S50000x128, .f32⟩).ofBuf (W (Proc.devRef .tc main_v16))
      = W (Proc.devRef .tc main_v16) := rfl
  have es : (StableHlo.TRef.of main_arg1 : StableHlo.TRef sig ⟨S800000, .i32⟩).ofBuf (W (Proc.devRef .tc main_arg1))
      = W (Proc.devRef .tc main_arg1) := rfl
  have eo : ∀ X : (⟨S800000x128, .f32⟩ : BufTy).Contents (Elt Ideal),
      (StableHlo.TRef.of main_v17 : StableHlo.TRef sig ⟨S800000x128, .f32⟩).toBuf X = X := fun _ => rfl
  after_results_simp
  simp only [ofBuf_toBuf, eh, es, eo]
  rfl

/-- The aggregation stretch `hostOps1_1` leaves `aggregate` of the selected rows, the destinations and the
    reciprocal-degree column in `main_v22`. -/
theorem agg1_read (W : Valuation τ sig (Elt Ideal)) :
    StableHlo.after hostOps1_1 W (Proc.devRef .tc main_v22)
      = aggregate (F := Ideal) (W (Proc.devRef .tc main_v17)) (W (Proc.devRef .tc main_arg2)) (W (Proc.devRef .tc main_v8)) := by
  after_results; rfl

/-- The same stretch reshapes the bias vector `main_arg8` to one row: entry (0, j) of `main_v23` is entry j. -/
theorem bias1_read (W : Valuation τ sig (Elt Ideal)) (j : Fin 128) :
    StableHlo.after hostOps1_1 W (Proc.devRef .tc main_v23) (ix2 (0 : Fin 1) j) = W (Proc.devRef .tc main_arg8) (ix1 j) := by
  have e : (StableHlo.after hostOps1_1 W (Proc.devRef .tc main_v23) : S1x128.Idx → Elt Ideal .f32)
      = shapeCast S1x128 (W (Proc.devRef .tc main_arg8) : S128.Idx → Elt Ideal .f32) shapeCasts_S128_S1x128 := by
    after_results; rfl
  exact (congrFun e _).trans (shapeCast_apply _ _ _ (ix1 j) (by
    rw [Shape.rowMajor_val_two, Shape.rowMajor_val_one]; show j.val = 0 * 128 + j.val; omega))

/-- The row selection `hostOps2` leaves `takeRows` of its two operands in its result buffer: the operations' results
    read one after the other are the terms of `wrapIdx`, `inRange`, `gatherRows` and the final select. -/
theorem take2_read (W : Valuation τ sig (Elt Ideal)) :
    StableHlo.after hostOps2 W (Proc.devRef .tc main_v25)
      = takeRows (F := Ideal) (W (Proc.devRef .tc main_v24)) (W (Proc.devRef .tc main_arg1)) := by
  have eh : (StableHlo.TRef.of main_v24 : StableHlo.TRef sig ⟨S50000x128, .f32⟩).ofBuf (W (Proc.devRef .tc main_v24))
      = W (Proc.devRef .tc main_v24) := rfl
  have es : (StableHlo.TRef.of main_arg1 : StableHlo.TRef sig ⟨S800000, .i32⟩).ofBuf (W (Proc.devRef .tc main_arg1))
      = W (Proc.devRef .tc main_arg1) := rfl
  have eo : ∀ X : (⟨S800000x128, .f32⟩ : BufTy).Contents (Elt Ideal),
      (StableHlo.TRef.of main_v25 : StableHlo.TRef sig ⟨S800000x128, .f32⟩).toBuf X = X := fun _ => rfl
  after_results_simp
  simp only [ofBuf_toBuf, eh, es, eo]
  rfl

/-- The aggregation stretch `hostOps2_1` leaves `aggregate` of the selected rows, the destinations and the
    reciprocal-degree column in `main_v30`. -/
theorem agg2_read (W : Valuation τ sig (Elt Ideal)) :
    StableHlo.after hostOps2_1 W (Proc.devRef .tc main_v30)
      = aggregate (F := Ideal) (W (Proc.devRef .tc main_v25)) (W (Proc.devRef .tc main_arg2)) (W (Proc.devRef .tc main_v8)) := by
  after_results; rfl

/-- The same stretch reshapes the bias vector `main_arg11` to one row: entry (0, j) of `main_v31` is entry j. -/
theorem bias2_read (W : Valuation τ sig (Elt Ideal)) (j : Fin 64) :
    StableHlo.after hostOps2_1 W (Proc.devRef .tc main_v31) (ix2 (0 : Fin 1) j) = W (Proc.devRef .tc main_arg11) (ix1 j) := by
  have e : (StableHlo.after hostOps2_1 W (Proc.devRef .tc main_v31) : S1x64.Idx → Elt Ideal .f32)
      = shapeCast S1x64 (W (Proc.devRef .tc main_arg11) : S64.Idx → Elt Ideal .f32) shapeCasts_S64_S1x64 := by
    after_results; rfl
  exact (congrFun e _).trans (shapeCast_apply _ _ _ (ix1 j) (by
    rw [Shape.rowMajor_val_two, Shape.rowMajor_val_one]; show j.val = 0 * 64 + j.val; omega))

/-! ## The boundaries walked back

A reference that no stretch so far writes and that is none of a crossed region's arrays holds at a boundary what
it held at an earlier one, down to the launch memory. -/

section Walk
variable (c : Dev nD) {r : Ref sig .tc}

theorem W2_launch (h1 : r ∉ written0_1) (h0 : r ∉ written0) :
    W2 m ρ c (Proc.devRef .tc r) = m ((c : Thread nD τ).loc r) :=
  (keeps0_1 _ h1).trans (keeps0 _ h0)
theorem W3_launch (h2 : r ∉ written0_2) (h1 : r ∉ written0_1) (h0 : r ∉ written0) :
    W3 m ρ c (Proc.devRef .tc r) = m ((c : Thread nD τ).loc r) :=
  (keeps0_2 _ h2).trans (W2_launch m ρ c h1 h0)
/-- Across region 0 and the second row selection. -/
theorem W5_of_W3 (h : r ∉ written1) (hne : ∀ w, Pipeline.arrRef spec0 w ≠ r) :
    W5 m ρ c (Proc.devRef .tc r) = W3 m ρ c (Proc.devRef .tc r) :=
  (keeps1 _ h).trans (W4_of_ne m ρ c r hne)
/-- Across region 1 and the third row selection. -/
theorem W8_of_W6 (h : r ∉ written2) (hne : ∀ w, Pipeline.arrRef spec1 w ≠ r) :
    W8 m ρ c (Proc.devRef .tc r) = W6 m ρ c (Proc.devRef .tc r) :=
  (keeps2 _ h).trans (W7_of_ne m ρ c r hne)

end Walk

/-- The reciprocal-degree column is computed once, by the first stretch, and no later stretch or region touches
    its buffer. -/
theorem W2_inv (c : Dev nD) : W2 m ρ c (Proc.devRef .tc main_v8) = invDeg (F := Ideal) (m ((c : Thread nD τ).loc main_arg2)) :=
  (keeps0_1 _ (by decide)).trans (invDeg_read _)
theorem W5_inv (c : Dev nD) : W5 m ρ c (Proc.devRef .tc main_v8) = invDeg (F := Ideal) (m ((c : Thread nD τ).loc main_arg2)) :=
  (W5_of_W3 m ρ c (by decide) (by decide)).trans ((keeps0_2 _ (by decide)).trans (W2_inv m ρ c))
theorem W8_inv (c : Dev nD) : W8 m ρ c (Proc.devRef .tc main_v8) = invDeg (F := Ideal) (m ((c : Thread nD τ).loc main_arg2)) :=
  (W8_of_W6 m ρ c (by decide) (by decide)).trans ((keeps1_1 _ (by decide)).trans (W5_inv m ρ c))

/-- An array nothing writes before the second aggregation stretch is there as launched. -/
theorem W5_launch (c : Dev nD) {r : Ref sig .tc} (h : r ∉ written1) (hne : ∀ w, Pipeline.arrRef spec0 w ≠ r)
    (h2 : r ∉ written0_2) (h1 : r ∉ written0_1) (h0 : r ∉ written0) :
    W5 m ρ c (Proc.devRef .tc r) = m ((c : Thread nD τ).loc r) :=
  (W5_of_W3 m ρ c h hne).trans (W3_launch m ρ c h2 h1 h0)
/-- An array nothing writes before the third aggregation stretch is there as launched. -/
theorem W8_launch (c : Dev nD) {r : Ref sig .tc} (h' : r ∉ written2) (hne' : ∀ w, Pipeline.arrRef spec1 w ≠ r)
    (h11 : r ∉ written1_1) (h : r ∉ written1) (hne : ∀ w, Pipeline.arrRef spec0 w ≠ r)
    (h2 : r ∉ written0_2) (h1 : r ∉ written0_1) (h0 : r ∉ written0) :
    W8 m ρ c (Proc.devRef .tc r) = m ((c : Thread nD τ).loc r) :=
  (W8_of_W6 m ρ c h' hne').trans ((keeps1_1 _ h11).trans (W5_launch m ρ c h hne h2 h1 h0))

/-! ## Region 0 is entered from the launch memory -/

theorem entry0_h (c : Dev nD) : V3 m ρ c main_arg0 = (m ((c : Thread nD τ).loc main_arg0)) :=
  W3_launch m ρ c (by decide) (by decide) (by decide)
theorem entry0_hn (c : Dev nD) : V3 m ρ c main_v14 = aggregate (F := Ideal) (takeRows (F := Ideal) (m ((c : Thread nD τ).loc main_arg0)) (m ((c : Thread nD τ).loc main_arg1))) (m ((c : Thread nD τ).loc main_arg2)) (invDeg (F := Ideal) (m ((c : Thread nD τ).loc main_arg2))) := by
  have e0 : W1 m ρ c (Proc.devRef .tc main_arg0) = m ((c : Thread nD τ).loc main_arg0) := keeps0 _ (by decide)
  have e1 : W1 m ρ c (Proc.devRef .tc main_arg1) = m ((c : Thread nD τ).loc main_arg1) := keeps0 _ (by decide)
  have e2 : W2 m ρ c (Proc.devRef .tc main_arg2) = m ((c : Thread nD τ).loc main_arg2) :=
    W2_launch m ρ c (by decide) (by decide)
  have e9 : W2 m ρ c (Proc.devRef .tc main_v9) = takeRows (F := Ideal) (m ((c : Thread nD τ).loc main_arg0)) (m ((c : Thread nD τ).loc main_arg1)) := by
    rw [← e0, ← e1]; exact take0_read _
  show StableHlo.after hostOps0_2 (W2 m ρ c) (Proc.devRef .tc main_v14) = _
  rw [agg0_read, e9, e2, W2_inv]
theorem entry0_ws (c : Dev nD) : V3 m ρ c main_arg3 = (m ((c : Thread nD τ).loc main_arg3)) :=
  W3_launch m ρ c (by decide) (by decide) (by decide)
theorem entry0_wn (c : Dev nD) : V3 m ρ c main_arg4 = (m ((c : Thread nD τ).loc main_arg4)) :=
  W3_launch m ρ c (by decide) (by decide) (by decide)
theorem entry0_b (c : Dev nD) (j : Fin 128) : V3 m ρ c main_v15 (ix2 (0 : Fin 1) j) = (m ((c : Thread nD τ).loc main_arg5)) (ix1 j) :=
  (bias0_read _ j).trans (congrFun (W2_launch m ρ c (r := main_arg5) (by decide) (by decide)) _)

/-! ## Region 1 is entered with region 0's output array as its node features -/

theorem entry1_h (c : Dev nD) : V6 m ρ c main_v16 = (dat0 (V3 m ρ) c).arrAt 5 cfg0.N :=
  (keeps1_1 _ (by decide)).trans <| (keeps1 _ (by decide)).trans (W4_arr m ρ c 5)
theorem entry1_hn (c : Dev nD) : V6 m ρ c main_v22 = aggregate (F := Ideal) (takeRows (F := Ideal) ((dat0 (V3 m ρ) c).arrAt 5 cfg0.N) (m ((c : Thread nD τ).loc main_arg1))) (m ((c : Thread nD τ).loc main_arg2)) (invDeg (F := Ideal) (m ((c : Thread nD τ).loc main_arg2))) := by
  have eh : W4 m ρ c (Proc.devRef .tc main_v16) = (dat0 (V3 m ρ) c).arrAt 5 cfg0.N := W4_arr m ρ c 5
  have e1 : W4 m ρ c (Proc.devRef .tc main_arg1) = m ((c : Thread nD τ).loc main_arg1) :=
    (W4_of_ne m ρ c main_arg1 (by decide)).trans (W3_launch m ρ c (by decide) (by decide) (by decide))
  have e2 : W5 m ρ c (Proc.devRef .tc main_arg2) = m ((c : Thread nD τ).loc main_arg2) :=
    W5_launch m ρ c (by decide) (by decide) (by decide) (by decide) (by decide)
  have e17 : W5 m ρ c (Proc.devRef .tc main_v17) = takeRows (F := Ideal) ((dat0 (V3 m ρ) c).arrAt 5 cfg0.N) (m ((c : Thread nD τ).loc main_arg1)) := by
    rw [← eh, ← e1]; exact take1_read _
  show StableHlo.after hostOps1_1 (W5 m ρ c) (Proc.devRef .tc main_v22) = _
  rw [agg1_read, e17, e2, W5_inv]
theorem entry1_ws (c : Dev nD) : V6 m ρ c main_arg6 = (m ((c : Thread nD τ).loc main_arg6)) :=
  (keeps1_1 _ (by decide)).trans (W5_launch m ρ c (by decide) (by decide) (by decide) (by decide) (by decide))
theorem entry1_wn (c : Dev nD) : V6 m ρ c main_arg7 = (m ((c : Thread nD τ).loc main_arg7)) :=
  (keeps1_1 _ (by decide)).trans (W5_launch m ρ c (by decide) (by decide) (by decide) (by decide) (by decide))
theorem entry1_b (c : Dev nD) (j : Fin 128) : V6 m ρ c main_v23 (ix2 (0 : Fin 1) j) = (m ((c : Thread nD τ).loc main_arg8)) (ix1 j) :=
  (bias1_read _ j).trans (congrFun (W5_launch m ρ c (r := main_arg8) (by decide) (by decide) (by decide) (by decide) (by decide)) _)

/-! ## Region 2 is entered with region 1's output array as its node features -/

theorem entry2_h (c : Dev nD) : V9 m ρ c main_v24 = (dat1 (V6 m ρ) c).arrAt 5 cfg1.N :=
  (keeps2_1 _ (by decide)).trans <| (keeps2 _ (by decide)).trans (W7_arr m ρ c 5)
theorem entry2_hn (c : Dev nD) : V9 m ρ c main_v30 = aggregate (F := Ideal) (takeRows (F := Ideal) ((dat1 (V6 m ρ) c).arrAt 5 cfg1.N) (m ((c : Thread nD τ).loc main_arg1))) (m ((c : Thread nD τ).loc main_arg2)) (invDeg (F := Ideal) (m ((c : Thread nD τ).loc main_arg2))) := by
  have eh : W7 m ρ c (Proc.devRef .tc main_v24) = (dat1 (V6 m ρ) c).arrAt 5 cfg1.N := W7_arr m ρ c 5
  have e1 : W7 m ρ c (Proc.devRef .tc main_arg1) = m ((c : Thread nD τ).loc main_arg1) :=
    (W7_of_ne m ρ c main_arg1 (by decide)).trans <| (keeps1_1 _ (by decide)).trans
      (W5_launch m ρ c (by decide) (by decide) (by decide) (by decide) (by decide))
  have e2 : W8 m ρ c (Proc.devRef .tc main_arg2) = m ((c : Thread nD τ).loc main_arg2) :=
    W8_launch m ρ c (by decide) (by decide) (by decide) (by decide) (by decide) (by decide) (by decide) (by decide)
  have e25 : W8 m ρ c (Proc.devRef .tc main_v25) = takeRows (F := Ideal) ((dat1 (V6 m ρ) c).arrAt 5 cfg1.N) (m ((c : Thread nD τ).loc main_arg1)) := by
    rw [← eh, ← e1]; exact take2_read _
  show StableHlo.after hostOps2_1 (W8 m ρ c) (Proc.devRef .tc main_v30) = _
  rw [agg2_read, e25, e2, W8_inv]
theorem entry2_ws (c : Dev nD) : V9 m ρ c main_arg9 = (m ((c : Thread nD τ).loc main_arg9)) :=
  (keeps2_1 _ (by decide)).trans (W8_launch m ρ c (by decide) (by decide) (by decide) (by decide) (by decide) (by decide) (by decide) (by decide))
theorem entry2_wn (c : Dev nD) : V9 m ρ c main_arg10 = (m ((c : Thread nD τ).loc main_arg10)) :=
  (keeps2_1 _ (by decide)).trans (W8_launch m ρ c (by decide) (by decide) (by decide) (by decide) (by decide) (by decide) (by decide) (by decide))
theorem entry2_b (c : Dev nD) (j : Fin 64) : V9 m ρ c main_v31 (ix2 (0 : Fin 1) j) = (m ((c : Thread nD τ).loc main_arg11)) (ix1 j) :=
  (bias2_read _ j).trans (congrFun (W8_launch m ρ c (r := main_arg11) (by decide) (by decide) (by decide) (by decide) (by decide) (by decide) (by decide) (by decide)) _)

/-! ## The result buffer at the end of the run -/

theorem result (c : Dev nD) : W10 m ρ c (Proc.devRef .tc main_v32) = (dat2 (V9 m ρ) c).arrAt 5 cfg2.N :=
  W10_arr m ρ c 5

end Cert.KernelIdeal.HostValue

end
-- ==== Proof.Spec.lean ====
/-
  The mathematics the two programs share, over the extended reals.

  A layer takes the node features `h` (50000 rows of 128) and the aggregated neighbour features `hn` (the same
  shape) to the affine map  h·Wₛ + hn·Wₙ + b, row by row.  The first two layers then clamp every entry at zero and
  divide each row by  max(‖row‖₂, ε); the last layer (128 → 64) is the affine map alone.  Nothing here mentions a
  program: both sides are shown to compute these functions, and the only facts used about + and · are that the
  same sums are taken in the same order.
-/
import Idealize.ShloMosaic.PureOps.Ideal
import Idealize.ShloMosaic.Lib.ValueIdx

noncomputable section

namespace Cert.Sage

open Idealize.ShloMosaic Idealize.ShloMosaic.ValueIdx

/-- A 50000 × 128 array of extended reals: one row of 128 features per node. -/
abbrev Nodes128 : Type := (⟨2, ![50000, 128]⟩ : Shape).Idx → EReal
/-- A 50000 × 64 array: the last layer's output. -/
abbrev Nodes64 : Type := (⟨2, ![50000, 64]⟩ : Shape).Idx → EReal
/-- A 128 × 128 weight matrix. -/
abbrev Mat128 : Type := (⟨2, ![128, 128]⟩ : Shape).Idx → EReal
/-- A 128 × 64 weight matrix. -/
abbrev Mat64 : Type := (⟨2, ![128, 64]⟩ : Shape).Idx → EReal

/-- Entry (i, j) of  h·Wₛ + hn·Wₙ + b  for a 128-wide output: two contractions over the 128 input features,
    then the bias of column j. -/
def affine128 (h hn : Nodes128) (ws wn : Mat128) (b : Fin 128 → EReal) (i : Fin 50000) (j : Fin 128) : EReal :=
  (∑ k : Fin 128, h (ix2 i k) * ws (ix2 k j)) + (∑ k : Fin 128, hn (ix2 i k) * wn (ix2 k j)) + b j

/-- The same for the 64-wide output of the last layer. -/
def affine64 (h hn : Nodes128) (ws wn : Mat64) (b : Fin 64 → EReal) (i : Fin 50000) (j : Fin 64) : EReal :=
  (∑ k : Fin 128, h (ix2 i k) * ws (ix2 k j)) + (∑ k : Fin 128, hn (ix2 i k) * wn (ix2 k j)) + b j

/-- A row `r` clamped at zero and divided by  max(√(Σₗ max(rₗ, 0)²), ε), read at column j.  The zero and ε are kept as
    the f32 words both programs carry (ε is the f32 nearest 10⁻¹²), so neither is ever evaluated. -/
def unitRow (r : Fin 128 → EReal) (j : Fin 128) : EReal :=
  Ideal.div (max (r j) (Ideal.ofBits .f32 0x00000000#32))
    (max (Ideal.sqrt (∑ l : Fin 128, max (r l) (Ideal.ofBits .f32 0x00000000#32) * max (r l) (Ideal.ofBits .f32 0x00000000#32)))
      (Ideal.ofBits .f32 0x2B8CBCCC#32))

/-- A normalising layer (the first two): the affine map, then each row clamped and scaled to unit length. -/
def normLayer (h hn : Nodes128) (ws wn : Mat128) (b : Fin 128 → EReal) : Nodes128 :=
  fun i => unitRow (affine128 h hn ws wn b (i 0)) (i 1)

/-- The last layer: the affine map alone. -/
def lastLayer (h hn : Nodes128) (ws wn : Mat64) (b : Fin 64 → EReal) : Nodes64 :=
  fun i => affine64 h hn ws wn b (i 0) (i 1)

/-- The three layers composed.  `agg` is the neighbour aggregation, applied to each layer's input; the two programs
    are shown to use the same one. -/
def network (agg : Nodes128 → Nodes128) (x : Nodes128)
    (ws0 wn0 : Mat128) (b0 : Fin 128 → EReal) (ws1 wn1 : Mat128) (b1 : Fin 128 → EReal)
    (ws2 wn2 : Mat64) (b2 : Fin 64 → EReal) : Nodes64 :=
  lastLayer (normLayer (normLayer x (agg x) ws0 wn0 b0) (agg (normLayer x (agg x) ws0 wn0 b0)) ws1 wn1 b1)
    (agg (normLayer (normLayer x (agg x) ws0 wn0 b0) (agg (normLayer x (agg x) ws0 wn0 b0)) ws1 wn1 b1)) ws2 wn2 b2

end Cert.Sage

end
-- ==== Proof.KRegion0.lean ====
/-
  The first tiled region, read as a function of whatever it finds in its input arrays.

  The region visits 25 grid points; point t stages rows 2000·t … 2000·t + 1999 of the two activation arrays, the two
  weight matrices and the one-row bias whole, and writes back the same rows of the 50000 × 128 output.  Entry (p, q)
  of what point t writes is computed from row p of the two activation blocks alone: two contractions over the 128
  input features plus the bias of column q, the row then clamped at zero and divided by the larger of its
  Euclidean length and ε.  Since row p of block t is row 2000·t + p of the array, every block is the
  restriction of ONE whole-array function — the specification's layer — and the 25 blocks cover the output, so the
  output array is that layer.
-/
import proofs.«410790_j17428977287557_1_alg».proof.Proof.Gen.KernelIdeal.Frame
import proofs.«410790_j17428977287557_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Layout operations of the body, read at coordinates -/

/-- A length-2000 vector viewed as a 2000 × 1 column reads, at (p, u), the vector at p. -/
theorem r0_cast_col {α : Type} (v : S2000.Idx → α) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 2000 × 1 column broadcast along the 128 lanes reads, at (p, q), the column at row p. -/
theorem r0_bcast_col {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ =>
    show p.val = if (2000 : Nat) = 1 then 0 else p.val
    rw [if_neg (by decide)]
  | ⟨1, _⟩ => rfl

/-- A 1 × 128 row broadcast over the 2000 rows reads, at (p, q), the row at lane q. -/
theorem r0_bcast_row {α : Type} (v : S1x128.Idx → α) (h : S1x128.Broadcasts S2000x128) (p : Fin 2000) (q : Fin 128) :
    broadcastTo S2000x128 v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if (128 : Nat) = 1 then 0 else q.val
    rw [if_neg (by decide)]

/-- A square root of a vector reads, at an index, the square root of the element. -/
theorem r0_sqrt_apply {s : Shape} {φ : FTy} (a : FVec Ideal s φ) (i : s.Idx) : sqrt a i = Ideal.sqrt (a i) := rfl

/-- The sum over the 128 lanes of a 2000 × 128 block, read at row p. -/
theorem r0_rowsum (v : FVec Ideal S2000x128 .f32) (hφ : FKind.Formats .f32)
    (hacc : (0x00000000#32 : BitVec 32) = 0x00000000#32) (p : Fin 2000) :
    multiReduction (F := Ideal) .add [1] S2000 v 0x00000000#32 reduces_S2000x128_S2000 hφ hacc (ix1 p)
      = ∑ l : Fin 128, v (ix2 p l) := by
  refine (Ideal.multiReduction_add_single v 0x00000000#32 reduces_S2000x128_S2000 hφ hacc (ix1 p)).trans ?_
  refine Finset.sum_congr rfl fun l _ => congrArg v ?_
  funext a
  match a with
  | ⟨0, _⟩ => rfl
  | ⟨1, _⟩ => rfl

/-! ## The two products of the body, read at coordinates -/

/-- The left operand's index of the 2000 × 128 by 128 × 128 product keeps the output's row … -/
theorem r0_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and takes the contraction's coordinate as its column; -/
theorem r0_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's index takes the contraction's coordinate as its row … -/
theorem r0_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and keeps the output's column. -/
theorem r0_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product accumulated into the zero block, read at (p, q): the sum over the 128 shared coordinates of row p of the
    left operand times column q of the right. -/
theorem r0_matmul_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact r0_lhs_0 _ _
    | ⟨1, _⟩ => exact (r0_lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (r0_rhs_0 _ _).trans hk
    | ⟨1, _⟩ => exact r0_rhs_1 _ _)
  rw [el, er]

/-! ## The body's arithmetic at an entry of the block -/

/-- Entry (p, q) of what the body stores: row p of the affine map of the five blocks, clamped at zero and divided by
    the larger of its length and ε, read at lane q. -/
theorem r0_pay (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = Cert.Sage.unitRow (fun j => (∑ k : Fin 128, x0 (ix2 p k) * x2 (ix2 k j)) + (∑ k : Fin 128, x1 (ix2 p k) * x3 (ix2 k j))
          + x4 (ix2 (0 : Fin 1) j)) q := by
  unfold k0_pay1 Cert.Sage.unitRow
  simp only [divf_apply, maximumf_apply, broadcast_apply, r0_bcast_col, r0_sqrt_apply, r0_cast_col, addf_apply, r0_bcast_row,
    shapeCast_self, r0_matmul_apply, truncf_apply, Ideal.ofBits_def]
  rw [r0_rowsum]
  simp only [mulf_apply, maximumf_apply, broadcast_apply, addf_apply, r0_bcast_row, shapeCast_self, r0_matmul_apply, truncf_apply,
    Ideal.ofBits_def]

/-! ## The blocks the body finds, as rows of the arrays -/

theorem r0_hz : (![0, 0] : Fin 2 → Nat) = fun _ => 0 := funext fun a => by fin_cases a <;> rfl

/-- The block indices at grid point t, decided over the 25 points: windows 0, 1 and 5 sit at row block t, all 128
    columns; windows 2, 3 and 4 stay on their whole arrays. -/
theorem r0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of window 0's block at point t is entry (2000·t + p, k) of the node features. -/
theorem r0_blk0 (c : Dev nD) (t : Fin cfg0.N) (p : Fin 2000) (k : Fin 128) (h : 2000 * t.val + p.val < 50000) :
    (iblk0 V c 0 t : Vec Ideal S2000x128 .f32) (ix2 p k)
      = (V c main_arg0 : Vec Ideal S50000x128 .f32) (ix2 ⟨2000 * t.val + p.val, h⟩ k) := by
  obtain ⟨e0, e1, -⟩ := r0_idx t
  show V c main_arg0 (((cfg0.win 0).blk t).view.emb (ix2 p k)) = V c main_arg0 _
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- Entry (p, k) of window 1's block at point t is entry (2000·t + p, k) of the aggregated neighbour features. -/
theorem r0_blk1 (c : Dev nD) (t : Fin cfg0.N) (p : Fin 2000) (k : Fin 128) (h : 2000 * t.val + p.val < 50000) :
    (iblk0 V c 1 t : Vec Ideal S2000x128 .f32) (ix2 p k)
      = (V c main_v14 : Vec Ideal S50000x128 .f32) (ix2 ⟨2000 * t.val + p.val, h⟩ k) := by
  obtain ⟨-, -, e0, e1, -⟩ := r0_idx t
  show V c main_v14 (((cfg0.win 1).blk t).view.emb (ix2 p k)) = V c main_v14 _
  refine congrArg (V c main_v14) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

/-- Window 2's block at every point is the first weight matrix. -/
theorem r0_blk2 (c : Dev nD) (t : Fin cfg0.N) (k j : Fin 128) :
    (iblk0 V c 2 t : Vec Ideal S128x128 .f32) (ix2 k j) = (V c main_arg3 : Vec Ideal S128x128 .f32) (ix2 k j) := by
  obtain ⟨-, -, -, -, e0, e1, -⟩ := r0_idx t
  show V c main_arg3 (((cfg0.win 2).blk t).view.emb (ix2 k j)) = V c main_arg3 _
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- Window 3's block at every point is the second weight matrix. -/
theorem r0_blk3 (c : Dev nD) (t : Fin cfg0.N) (k j : Fin 128) :
    (iblk0 V c 3 t : Vec Ideal S128x128 .f32) (ix2 k j) = (V c main_arg4 : Vec Ideal S128x128 .f32) (ix2 k j) := by
  obtain ⟨-, -, -, -, -, -, e0, e1, -⟩ := r0_idx t
  show V c main_arg4 (((cfg0.win 3).blk t).view.emb (ix2 k j)) = V c main_arg4 _
  refine congrArg (V c main_arg4) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- Window 4's block at every point is the bias row. -/
theorem r0_blk4 (c : Dev nD) (t : Fin cfg0.N) (j : Fin 128) :
    (iblk0 V c 4 t : Vec Ideal S1x128 .f32) (ix2 (0 : Fin 1) j) = (V c main_v15 : Vec Ideal S1x128 .f32) (ix2 (0 : Fin 1) j) := by
  obtain ⟨-, -, -, -, -, -, -, -, e0, e1, -⟩ := r0_idx t
  show V c main_v15 (((cfg0.win 4).blk t).view.emb (ix2 (0 : Fin 1) j)) = V c main_v15 _
  refine congrArg (V c main_v15) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * j.val = j.val; omega

/-! ## What a point writes back, the cover, and the array after the region -/

/-- The normalising layer at an index whose coordinates are (r, q): the unit-length clamped row r of the affine map,
    read at lane q. -/
theorem r0_norm_at (h hn : Cert.Sage.Nodes128) (ws wn : Cert.Sage.Mat128) (b : Fin 128 → EReal) (i : S50000x128.Idx)
    (r : Fin 50000) (q : Fin 128) (h0 : (i 0).val = r.val) (h1 : (i 1).val = q.val) :
    Cert.Sage.normLayer h hn ws wn b i = Cert.Sage.unitRow (Cert.Sage.affine128 h hn ws wn b r) q := by
  unfold Cert.Sage.normLayer
  rw [show i 0 = r from Fin.ext h0, show i 1 = q from Fin.ext h1]

/-- WHAT POINT t WRITES BACK is block t of the normalising layer of the five arrays as the region finds them. -/
theorem r0_flushed (c : Dev nD) (t : Fin cfg0.N) :
    (dat0 (F := Ideal) V c).flushed 5 t
      = ((cfg0.win 5).blk t).view.read (Elt Ideal)
          (Cert.Sage.normLayer (V c main_arg0) (V c main_v14) (V c main_arg3) (V c main_arg4)
            (fun j => V c main_v15 (ix2 (0 : Fin 1) j))) := by
  show (cfg0.win 5).cut (grid0.coords t) ((dat0 V c).after 5 t) = _
  rw [after0_5]
  unfold out0_5
  rw [View.canon_unit_zero r0_hz]
  simp only [View.ld_unit_zero (S := S2000x128) r0_hz, View.ld_unit_zero (S := S128x128) r0_hz,
    View.ld_unit_zero (S := S1x128) r0_hz]
  funext j
  obtain ⟨p, q, rfl⟩ : ∃ (p : Fin 2000) (q : Fin 128), j = ix2 p q := ⟨j 0, j 1, eq_ix2 j⟩
  have ht : t.val < 25 := lt_of_lt_of_eq t.isLt (show cfg0.N = 25 from N_0)
  obtain ⟨-, -, -, -, -, -, -, -, -, -, e0, e1⟩ := r0_idx t
  have hrow : 2000 * t.val + p.val < 50000 := by omega
  show k0_pay1 (F := Ideal) (iblk0 V c 0 t) (iblk0 V c 1 t) (iblk0 V c 2 t) (iblk0 V c 3 t) (iblk0 V c 4 t) (ix2 p q)
    = Cert.Sage.normLayer (V c main_arg0) (V c main_v14) (V c main_arg3) (V c main_arg4)
        (fun j => V c main_v15 (ix2 (0 : Fin 1) j)) (((cfg0.win 5).blk t).view.emb (ix2 p q))
  refine ((r0_pay (iblk0 V c 0 t) (iblk0 V c 1 t) (iblk0 V c 2 t) (iblk0 V c 3 t) (iblk0 V c 4 t) p q).trans ?_).trans
    (r0_norm_at (V c main_arg0) (V c main_v14) (V c main_arg3) (V c main_arg4) (fun j => V c main_v15 (ix2 (0 : Fin 1) j))
      (((cfg0.win 5).blk t).view.emb (ix2 p q)) ⟨2000 * t.val + p.val, hrow⟩ q
      (by show win0_5.index t (0 : Fin 2) * 2000 + 1 * p.val = 2000 * t.val + p.val; omega)
      (by show win0_5.index t (1 : Fin 2) * 128 + 1 * q.val = q.val; omega)).symm
  refine congrArg (fun r => Cert.Sage.unitRow r q) (funext fun j => ?_)
  unfold Cert.Sage.affine128
  simp only [r0_blk0 V c t p _ hrow, r0_blk1 V c t p _ hrow, r0_blk2 V c t, r0_blk3 V c t, r0_blk4 V c t]

/-- An index of the output array is in point t's block iff each coordinate is in the block's range on its axis. -/
theorem r0_mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v16).slice (win0_5.rect t)).set ↔ _
  rw [View.set_slice_whole, Rect.mem_set_unit]
  exact Iff.rfl

/-- Every index of the 50000 × 128 output is in some point's block: row r is in block r / 2000. -/
theorem r0_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, e0, e1⟩ := r0_idx t
  refine ⟨t, flush0_5 t, ?_⟩
  rw [r0_mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The first region's output array, whatever the region finds in its five input arrays: the normalising layer of
    those arrays. -/
theorem region0_value (c : Dev nD) :
    (dat0 (F := Ideal) V c).arrAt 5 cfg0.N
      = Cert.Sage.normLayer (V c main_arg0) (V c main_v14) (V c main_arg3) (V c main_arg4)
          (fun j => V c main_v15 (ix2 (0 : Fin 1) j)) :=
  (dat0 (F := Ideal) V c).arrAt_eq_of_cover 5 _ (fun t _ => r0_flushed V c t) r0_cover

end Cert.KernelIdeal.RegionValue

end
-- ==== Proof.KRegion1.lean ====
/-
  The second tiled region, read as a function of whatever it finds in its input arrays.

  The region visits 25 grid points; point t stages rows 2000·t … 2000·t + 1999 of the two activation arrays, the two
  weight matrices and the one-row bias whole, and writes back the same rows of the 50000 × 128 output.  Entry (p, q)
  of what point t writes is computed from row p of the two activation blocks alone: two contractions over the 128
  input features plus the bias of column q, the row then clamped at zero and divided by the larger of its
  Euclidean length and ε.  Since row p of block t is row 2000·t + p of the array, every block is the
  restriction of ONE whole-array function — the specification's layer — and the 25 blocks cover the output, so the
  output array is that layer.
-/
import proofs.«410790_j17428977287557_1_alg».proof.Proof.Gen.KernelIdeal.Frame
import proofs.«410790_j17428977287557_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Layout operations of the body, read at coordinates -/

/-- A length-2000 vector viewed as a 2000 × 1 column reads, at (p, u), the vector at p. -/
theorem r1_cast_col {α : Type} (v : S2000.Idx → α) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 2000 × 1 column broadcast along the 128 lanes reads, at (p, q), the column at row p. -/
theorem r1_bcast_col {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ =>
    show p.val = if (2000 : Nat) = 1 then 0 else p.val
    rw [if_neg (by decide)]
  | ⟨1, _⟩ => rfl

/-- A 1 × 128 row broadcast over the 2000 rows reads, at (p, q), the row at lane q. -/
theorem r1_bcast_row {α : Type} (v : S1x128.Idx → α) (h : S1x128.Broadcasts S2000x128) (p : Fin 2000) (q : Fin 128) :
    broadcastTo S2000x128 v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if (128 : Nat) = 1 then 0 else q.val
    rw [if_neg (by decide)]

/-- A square root of a vector reads, at an index, the square root of the element. -/
theorem r1_sqrt_apply {s : Shape} {φ : FTy} (a : FVec Ideal s φ) (i : s.Idx) : sqrt a i = Ideal.sqrt (a i) := rfl

/-- The sum over the 128 lanes of a 2000 × 128 block, read at row p. -/
theorem r1_rowsum (v : FVec Ideal S2000x128 .f32) (hφ : FKind.Formats .f32)
    (hacc : (0x00000000#32 : BitVec 32) = 0x00000000#32) (p : Fin 2000) :
    multiReduction (F := Ideal) .add [1] S2000 v 0x00000000#32 reduces_S2000x128_S2000 hφ hacc (ix1 p)
      = ∑ l : Fin 128, v (ix2 p l) := by
  refine (Ideal.multiReduction_add_single v 0x00000000#32 reduces_S2000x128_S2000 hφ hacc (ix1 p)).trans ?_
  refine Finset.sum_congr rfl fun l _ => congrArg v ?_
  funext a
  match a with
  | ⟨0, _⟩ => rfl
  | ⟨1, _⟩ => rfl

/-! ## The two products of the body, read at coordinates -/

/-- The left operand's index of the 2000 × 128 by 128 × 128 product keeps the output's row … -/
theorem r1_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and takes the contraction's coordinate as its column; -/
theorem r1_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's index takes the contraction's coordinate as its row … -/
theorem r1_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and keeps the output's column. -/
theorem r1_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

set_option maxHeartbeats 400000 in
/-- A product accumulated into the zero block, read at (p, q): the sum over the 128 shared coordinates of row p of the
    left operand times column q of the right. -/
theorem r1_matmul_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact r1_lhs_0 _ _
    | ⟨1, _⟩ => exact (r1_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (r1_rhs_0 _ _).trans hk
    | ⟨1, _⟩ => exact r1_rhs_1 _ _)
  rw [el, er]

/-! ## The body's arithmetic at an entry of the block -/

set_option maxHeartbeats 400000 in
/-- Entry (p, q) of what the body stores: row p of the affine map of the five blocks, clamped at zero and divided by
    the larger of its length and ε, read at lane q. -/
theorem r1_pay (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = Cert.Sage.unitRow (fun j => (∑ k : Fin 128, x0 (ix2 p k) * x2 (ix2 k j)) + (∑ k : Fin 128, x1 (ix2 p k) * x3 (ix2 k j))
          + x4 (ix2 (0 : Fin 1) j)) q := by
  unfold k1_pay1 Cert.Sage.unitRow
  simp only [divf_apply, maximumf_apply, broadcast_apply, r1_bcast_col, r1_sqrt_apply, r1_cast_col, addf_apply, r1_bcast_row,
    shapeCast_self, r1_matmul_apply, truncf_apply, Ideal.ofBits_def]
  rw [r1_rowsum]
  simp only [mulf_apply, maximumf_apply, broadcast_apply, addf_apply, r1_bcast_row, shapeCast_self, r1_matmul_apply, truncf_apply,
    Ideal.ofBits_def]

/-! ## The index maps over the grid, and each window's block as rows of its array -/

/-- The zero offsets of a whole-block access, as a constant function. -/
theorem r1_hz : (![0, 0] : Fin 2 → Nat) = fun _ => 0 := funext fun a => by fin_cases a <;> rfl

/-- The printed index maps, decided over the 25 grid points: the two activation windows and the output window step one
    block of 2000 rows per point; the two weight windows and the bias window stay on their one block. -/
theorem r1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 25 points. -/
theorem r1_N : cfg1.N = 25 := N_1

/-- Row p of point t's block is row 2000·t + p of the array. -/
theorem r1_row_lt (t : Fin cfg1.N) (p : Fin 2000) : 2000 * t.val + p.val < 50000 := by
  have ht : t.val < 25 := Nat.lt_of_lt_of_eq t.isLt r1_N
  have hp := p.isLt; omega

set_option maxHeartbeats 400000 in
/-- Window 0's block at point t: rows 2000·t … 2000·t + 1999 of the first activation array. -/
theorem r1_blk0 (c : Dev nD) (t : Fin cfg1.N) (p : Fin 2000) (k : Fin 128) :
    (iblk1 V c 0 t : Vec Ideal S2000x128 .f32) (ix2 p k)
      = (V c main_v16 : S50000x128.Idx → EReal) (ix2 ⟨2000 * t.val + p.val, r1_row_lt t p⟩ k) := by
  obtain ⟨e0, e1, -⟩ := r1_idx_facts t
  unfold iblk1
  rw [View.read_apply]
  show V c main_v16 _ = V c main_v16 _
  congr 1
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

set_option maxHeartbeats 400000 in
/-- Window 1's block at point t: the same rows of the second activation array. -/
theorem r1_blk1 (c : Dev nD) (t : Fin cfg1.N) (p : Fin 2000) (k : Fin 128) :
    (iblk1 V c 1 t : Vec Ideal S2000x128 .f32) (ix2 p k)
      = (V c main_v22 : S50000x128.Idx → EReal) (ix2 ⟨2000 * t.val + p.val, r1_row_lt t p⟩ k) := by
  obtain ⟨-, -, e0, e1, -⟩ := r1_idx_facts t
  unfold iblk1
  rw [View.read_apply]
  show V c main_v22 _ = V c main_v22 _
  congr 1
  funext a; apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega

set_option maxHeartbeats 400000 in
/-- Window 2's block at every point: the whole first weight matrix. -/
theorem r1_blk2 (c : Dev nD) (t : Fin cfg1.N) (k : Fin 128) (q : Fin 128) :
    (iblk1 V c 2 t : Vec Ideal S128x128 .f32) (ix2 k q) = (V c main_arg6 : S128x128.Idx → EReal) (ix2 k q) := by
  obtain ⟨-, -, -, -, e0, e1, -⟩ := r1_idx_facts t
  unfold iblk1
  rw [View.read_apply]
  show V c main_arg6 _ = V c main_arg6 _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

set_option maxHeartbeats 400000 in
/-- Window 3's block at every point: the whole second weight matrix. -/
theorem r1_blk3 (c : Dev nD) (t : Fin cfg1.N) (k : Fin 128) (q : Fin 128) :
    (iblk1 V c 3 t : Vec Ideal S128x128 .f32) (ix2 k q) = (V c main_arg7 : S128x128.Idx → EReal) (ix2 k q) := by
  obtain ⟨-, -, -, -, -, -, e0, e1, -⟩ := r1_idx_facts t
  unfold iblk1
  rw [View.read_apply]
  show V c main_arg7 _ = V c main_arg7 _
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

set_option maxHeartbeats 400000 in
/-- Window 4's block at every point: the whole bias row. -/
theorem r1_blk4 (c : Dev nD) (t : Fin cfg1.N) (q : Fin 128) :
    (iblk1 V c 4 t : Vec Ideal S1x128 .f32) (ix2 (0 : Fin 1) q) = (V c main_v23 : S1x128.Idx → EReal) (ix2 (0 : Fin 1) q) := by
  obtain ⟨-, -, -, -, -, -, -, -, e0, e1, -⟩ := r1_idx_facts t
  unfold iblk1
  rw [View.read_apply]
  show V c main_v23 _ = V c main_v23 _
  congr 1
  funext a; apply Fin.ext
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-! ## From blocks to the array -/

/-- The normalising layer of the five arrays the region finds. -/
abbrev r1_G (c : Dev nD) : S50000x128.Idx → EReal :=
  Cert.Sage.normLayer (V c main_v16) (V c main_v22) (V c main_arg6) (V c main_arg7)
    (fun j => V c main_v23 (ix2 (0 : Fin 1) j))

/-- The clamped, scaled row read at a lane depends only on the row's entries. -/
theorem r1_unitRow_congr {r r' : Fin 128 → EReal} (h : ∀ j, r j = r' j) (q : Fin 128) :
    Cert.Sage.unitRow r q = Cert.Sage.unitRow r' q := by rw [funext h]

set_option maxHeartbeats 400000 in
/-- The body's result on point t's blocks, at entry (p, q): the normalising layer at row 2000·t + p, lane q. -/
theorem r1_pay_blocks (c : Dev nD) (t : Fin cfg1.N) (p : Fin 2000) (q : Fin 128) :
    k1_pay1 (F := Ideal) (iblk1 V c 0 t) (iblk1 V c 1 t) (iblk1 V c 2 t) (iblk1 V c 3 t) (iblk1 V c 4 t) (ix2 p q)
      = r1_G V c (ix2 ⟨2000 * t.val + p.val, r1_row_lt t p⟩ q) := by
  refine (r1_pay (iblk1 V c 0 t) (iblk1 V c 1 t) (iblk1 V c 2 t) (iblk1 V c 3 t) (iblk1 V c 4 t) p q).trans ?_
  show _ = Cert.Sage.unitRow (Cert.Sage.affine128 (V c main_v16) (V c main_v22) (V c main_arg6) (V c main_arg7)
    (fun j => V c main_v23 (ix2 (0 : Fin 1) j)) ⟨2000 * t.val + p.val, r1_row_lt t p⟩) q
  refine r1_unitRow_congr (fun j => ?_) q
  unfold Cert.Sage.affine128
  rw [r1_blk4 V c t j]
  refine congrArg₂ (· + ·) (congrArg₂ (· + ·) (Finset.sum_congr rfl fun k _ => ?_) (Finset.sum_congr rfl fun k _ => ?_)) rfl
  · rw [r1_blk0 V c t p k, r1_blk2 V c t k j]
  · rw [r1_blk1 V c t p k, r1_blk3 V c t k j]

/-- Two functions on a 2000 × 128 block agree when they agree at every (row, column). -/
theorem r1_block_ext {α : Type} (f g : S2000x128.Idx → α) (h : ∀ (p : Fin 2000) (q : Fin 128), f (ix2 p q) = g (ix2 p q)) : f = g :=
  funext fun j => by rw [eq_ix2 j]; exact h _ _

set_option maxHeartbeats 400000 in
/-- What point t writes back is block t of the normalising layer of the arrays the region finds. -/
theorem r1_flushed_eq (c : Dev nD) (t : Fin cfg1.N) :
    (dat1 (F := Ideal) V c).flushed 5 t = ((cfg1.win 5).blk t).view.read (Elt Ideal) (r1_G V c) := by
  show (cfg1.win 5).cut (grid1.coords t) ((dat1 V c).after 5 t) = _
  rw [after1_5]
  unfold out1_5
  rw [View.canon_unit_zero r1_hz]
  simp only [View.ld_unit_zero (S := S2000x128) r1_hz, View.ld_unit_zero (S := S128x128) r1_hz, View.ld_unit_zero (S := S1x128) r1_hz]
  obtain ⟨-, -, -, -, -, -, -, -, -, -, e0, e1⟩ := r1_idx_facts t
  refine r1_block_ext _ _ fun p q => ?_
  show k1_pay1 (F := Ideal) (iblk1 V c 0 t) (iblk1 V c 1 t) (iblk1 V c 2 t) (iblk1 V c 3 t) (iblk1 V c 4 t) (ix2 p q)
    = r1_G V c (((cfg1.win 5).blk t).view.emb (ix2 p q))
  refine (r1_pay_blocks V c t p q).trans (congrArg (r1_G V c) ?_)
  funext a; apply Fin.ext
  match a with
  | ⟨0, _⟩ => show 2000 * t.val + p.val = win1_5.index t (0 : Fin 2) * 2000 + 1 * p.val; omega
  | ⟨1, _⟩ => show q.val = win1_5.index t (1 : Fin 2) * 128 + 1 * q.val; omega

/-- An index of the 50000 × 128 array is in point t's block iff each coordinate is in the block's range on its axis. -/
theorem r1_mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v24).slice (win1_5.rect t)).set ↔ _
  rw [View.set_slice_whole, Rect.mem_set_unit]
  exact Iff.rfl

/-- The 25 blocks of 2000 rows cover the array: row r is in the block of point r / 2000. -/
theorem r1_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by rw [r1_N]; omega⟩
  have ht : t.val = (i 0).val / 2000 := rfl
  obtain ⟨-, -, -, -, -, -, -, -, -, -, e0, e1⟩ := r1_idx_facts t
  refine ⟨t, flush1_5 t, ?_⟩
  rw [r1_mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The second region's output array, whatever the region finds in its five input arrays: the normalising layer of
    those arrays. -/
theorem region1_value (c : Dev nD) :
    (dat1 (F := Ideal) V c).arrAt 5 cfg1.N
      = Cert.Sage.normLayer (V c main_v16) (V c main_v22) (V c main_arg6) (V c main_arg7)
          (fun j => V c main_v23 (ix2 (0 : Fin 1) j)) :=
  (dat1 (F := Ideal) V c).arrAt_eq_of_cover 5 (r1_G V c) (fun t _ => r1_flushed_eq V c t) r1_cover

end Cert.KernelIdeal.RegionValue

end
-- ==== Proof.KRegion2.lean ====
/-
  The third tiled region, read as a function of whatever it finds in its input arrays.

  The region visits 25 grid points; point t stages rows 2000·t … 2000·t + 1999 of the two activation arrays, the two
  weight matrices and the one-row bias whole, and writes back the same rows of the 50000 × 64 output.  Entry (p, q)
  of what point t writes is computed from row p of the two activation blocks alone: two contractions over the 128
  input features plus the bias of column q.  Since row p of block t is row 2000·t + p of the array, every block is the
  restriction of ONE whole-array function — the specification's layer — and the 25 blocks cover the output, so the
  output array is that layer.
-/
import proofs.«410790_j17428977287557_1_alg».proof.Proof.Gen.KernelIdeal.Frame
import proofs.«410790_j17428977287557_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index at output index i and contraction index q: its row is i's row … -/
theorem r2_lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- … and its column the contraction coordinate. -/
theorem r2_lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's index: its row is the contraction coordinate … -/
theorem r2_rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- … and its column i's column. -/
theorem r2_rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

set_option maxHeartbeats 400000 in
/-- A [2000,128] × [128,64] block product into the zero splat, at entry (p, q): row p of the left block against
    column q of the right one. -/
theorem r2_matmul_apply {φ₁ φ₂ : FTy} (x : FVec Ideal S2000x128 φ₁) (w : FVec Ideal S128x64 φ₂) (p : Fin 2000) (q : Fin 64) :
    FloatOps.matmul dot_S2000x128_S128x64_S2000x64_1_0_0_1_n_n none x w (constant S2000x64 .f32 0x00000000#32) (ix2 p q)
      = ∑ k : Fin 128, x (ix2 p k) * w (ix2 k q) := by
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact r2_lhs_0 _ _
    | ⟨1, _⟩ => exact (r2_lhs_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (r2_rhs_0 _ _).trans hk
    | ⟨1, _⟩ => exact r2_rhs_1 _ _)
  rw [el, er]

/-- The bias row [1,64] broadcast over the 2000 rows of a block, at entry (p, q): the row's entry q. -/
theorem r2_bias_apply (b : FVec Ideal S1x64 .f32) (p : Fin 2000) (q : Fin 64) :
    broadcastTo S2000x64 b broadcasts_S1x64_S2000x64 (ix2 p q) = b (ix2 (0 : Fin 1) q) := by
  refine broadcastTo_apply b broadcasts_S1x64_S2000x64 (ix2 p q) (ix2 (0 : Fin 1) q) fun a => ?_
  match a with
  | ⟨0, _⟩ => rfl
  | ⟨1, _⟩ => rfl

set_option maxHeartbeats 400000 in
/-- The body's arithmetic at entry (p, q) of its output block: the two contractions over the 128 features of row p
    of the two activation blocks, plus the bias of column q. -/
theorem r2_pay_apply (x0 x1 : Vec Ideal S2000x128 .f32) (x2 x3 : Vec Ideal S128x64 .f32) (x4 : Vec Ideal S1x64 .f32)
    (p : Fin 2000) (q : Fin 64) :
    k2_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k2_pay1
  simp only [shapeCast_self, matmul]
  rw [addf_apply, addf_apply, r2_matmul_apply, r2_matmul_apply, r2_bias_apply]
  rfl

/-! ## The index maps over the grid, and each window's block as rows of its array -/

/-- The zero offsets of a whole-block access, as a constant function. -/
theorem r2_hz : (![0, 0] : Fin 2 → Nat) = fun _ => 0 := funext fun a => by fin_cases a <;> rfl

/-- The printed index maps, decided over the 25 grid points: the two activation windows and the output window step one
    block of 2000 rows per point; the two weight windows and the bias window stay on their one block. -/
theorem r2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has 25 points. -/
theorem r2_N : cfg2.N = 25 := N_2

/-- Row p of point t's block is row 2000·t + p of the array. -/
theorem r2_row_lt (t : Fin cfg2.N) (p : Fin 2000) : 2000 * t.val + p.val < 50000 := by
  have ht : t.val < 25 := Nat.lt_of_lt_of_eq t.isLt r2_N
  have hp := p.isLt; omega

set_option maxHeartbeats 400000 in
/-- Window 0's block at point t: rows 2000·t … 2000·t + 1999 of the first activation array. -/
theorem r2_blk0 (c : Dev nD) (t : Fin cfg2.N) (p : Fin 2000) (k : Fin 128) :
    (iblk2 V c 0 t : Vec Ideal S2000x128 .f32) (ix2 p k)
      = (V c main_v24 : S50000x128.Idx → EReal) (ix2 ⟨2000 * t.val + p.val, r2_row_lt t p⟩ k) := by
  obtain ⟨e0, e1, -⟩ := r2_idx_facts t
  unfold iblk2
  rw [View.read_apply]
  show V c main_v24 _ = V c main_v24 _
  congr 1
  funext a; apply Fin.ext
  match a with
  | ⟨0, _⟩ => show win2_0.index t (0 : Fin 2) * 2000 + 1 * p.val = 2000 * t.val + p.val; omega
  | ⟨1, _⟩ => show win2_0.index t (1 : Fin 2) * 128 + 1 * k.val = k.val; omega

set_option maxHeartbeats 400000 in
/-- Window 1's block at point t: the same rows of the second activation array. -/
theorem r2_blk1 (c : Dev nD) (t : Fin cfg2.N) (p : Fin 2000) (k : Fin 128) :
    (iblk2 V c 1 t : Vec Ideal S2000x128 .f32) (ix2 p k)
      = (V c main_v30 : S50000x128.Idx → EReal) (ix2 ⟨2000 * t.val + p.val, r2_row_lt t p⟩ k) := by
  obtain ⟨-, -, e0, e1, -⟩ := r2_idx_facts t
  unfold iblk2
  rw [View.read_apply]
  show V c main_v30 _ = V c main_v30 _
  congr 1
  funext a; apply Fin.ext
  match a with
  | ⟨0, _⟩ => show win2_1.index t (0 : Fin 2) * 2000 + 1 * p.val = 2000 * t.val + p.val; omega
  | ⟨1, _⟩ => show win2_1.index t (1 : Fin 2) * 128 + 1 * k.val = k.val; omega

set_option maxHeartbeats 400000 in
/-- Window 2's block at every point: the whole first weight matrix. -/
theorem r2_blk2 (c : Dev nD) (t : Fin cfg2.N) (k : Fin 128) (q : Fin 64) :
    (iblk2 V c 2 t : Vec Ideal S128x64 .f32) (ix2 k q) = (V c main_arg9 : S128x64.Idx → EReal) (ix2 k q) := by
  obtain ⟨-, -, -, -, e0, e1, -⟩ := r2_idx_facts t
  unfold iblk2
  rw [View.read_apply]
  show V c main_arg9 _ = V c main_arg9 _
  congr 1
  funext a; apply Fin.ext
  match a with
  | ⟨0, _⟩ => show win2_2.index t (0 : Fin 2) * 128 + 1 * k.val = k.val; omega
  | ⟨1, _⟩ => show win2_2.index t (1 : Fin 2) * 64 + 1 * q.val = q.val; omega

set_option maxHeartbeats 400000 in
/-- Window 3's block at every point: the whole second weight matrix. -/
theorem r2_blk3 (c : Dev nD) (t : Fin cfg2.N) (k : Fin 128) (q : Fin 64) :
    (iblk2 V c 3 t : Vec Ideal S128x64 .f32) (ix2 k q) = (V c main_arg10 : S128x64.Idx → EReal) (ix2 k q) := by
  obtain ⟨-, -, -, -, -, -, e0, e1, -⟩ := r2_idx_facts t
  unfold iblk2
  rw [View.read_apply]
  show V c main_arg10 _ = V c main_arg10 _
  congr 1
  funext a; apply Fin.ext
  match a with
  | ⟨0, _⟩ => show win2_3.index t (0 : Fin 2) * 128 + 1 * k.val = k.val; omega
  | ⟨1, _⟩ => show win2_3.index t (1 : Fin 2) * 64 + 1 * q.val = q.val; omega

set_option maxHeartbeats 400000 in
/-- Window 4's block at every point: the whole bias row. -/
theorem r2_blk4 (c : Dev nD) (t : Fin cfg2.N) (q : Fin 64) :
    (iblk2 V c 4 t : Vec Ideal S1x64 .f32) (ix2 (0 : Fin 1) q) = (V c main_v31 : S1x64.Idx → EReal) (ix2 (0 : Fin 1) q) := by
  obtain ⟨-, -, -, -, -, -, -, -, e0, e1, -⟩ := r2_idx_facts t
  unfold iblk2
  rw [View.read_apply]
  show V c main_v31 _ = V c main_v31 _
  congr 1
  funext a; apply Fin.ext
  match a with
  | ⟨0, _⟩ => show win2_4.index t (0 : Fin 2) * 1 + 1 * (0 : Fin 1).val = (0 : Fin 1).val; omega
  | ⟨1, _⟩ => show win2_4.index t (1 : Fin 2) * 64 + 1 * q.val = q.val; omega

/-! ## From blocks to the array -/

/-- The last layer of the five arrays the region finds. -/
abbrev r2_G (c : Dev nD) : S50000x64.Idx → EReal :=
  Cert.Sage.lastLayer (V c main_v24) (V c main_v30) (V c main_arg9) (V c main_arg10)
    (fun j => V c main_v31 (ix2 (0 : Fin 1) j))

set_option maxHeartbeats 400000 in
/-- The body's result on point t's blocks, at entry (p, q): the last layer at row 2000·t + p, column q. -/
theorem r2_pay_blocks (c : Dev nD) (t : Fin cfg2.N) (p : Fin 2000) (q : Fin 64) :
    k2_pay1 (F := Ideal) (iblk2 V c 0 t) (iblk2 V c 1 t) (iblk2 V c 2 t) (iblk2 V c 3 t) (iblk2 V c 4 t) (ix2 p q)
      = r2_G V c (ix2 ⟨2000 * t.val + p.val, r2_row_lt t p⟩ q) := by
  refine (r2_pay_apply (iblk2 V c 0 t) (iblk2 V c 1 t) (iblk2 V c 2 t) (iblk2 V c 3 t) (iblk2 V c 4 t) p q).trans ?_
  rw [r2_blk4 V c t q]
  show _ = Cert.Sage.affine64 (V c main_v24) (V c main_v30) (V c main_arg9) (V c main_arg10)
    (fun j => V c main_v31 (ix2 (0 : Fin 1) j)) ⟨2000 * t.val + p.val, r2_row_lt t p⟩ q
  unfold Cert.Sage.affine64
  refine congrArg₂ (· + ·) (congrArg₂ (· + ·) (Finset.sum_congr rfl fun k _ => ?_) (Finset.sum_congr rfl fun k _ => ?_)) rfl
  · rw [r2_blk0 V c t p k, r2_blk2 V c t k q]
  · rw [r2_blk1 V c t p k, r2_blk3 V c t k q]

/-- Two functions on a 2000 × 64 block agree when they agree at every (row, column). -/
theorem r2_block_ext {α : Type} (f g : S2000x64.Idx → α) (h : ∀ (p : Fin 2000) (q : Fin 64), f (ix2 p q) = g (ix2 p q)) : f = g :=
  funext fun j => by rw [eq_ix2 j]; exact h _ _

set_option maxHeartbeats 400000 in
/-- What point t writes back is block t of the last layer of the arrays the region finds. -/
theorem r2_flushed_eq (c : Dev nD) (t : Fin cfg2.N) :
    (dat2 (F := Ideal) V c).flushed 5 t = ((cfg2.win 5).blk t).view.read (Elt Ideal) (r2_G V c) := by
  show (cfg2.win 5).cut (grid2.coords t) ((dat2 V c).after 5 t) = _
  rw [after2_5]
  unfold out2_5
  rw [View.canon_unit_zero r2_hz]
  simp only [View.ld_unit_zero (S := S2000x128) r2_hz, View.ld_unit_zero (S := S128x64) r2_hz, View.ld_unit_zero (S := S1x64) r2_hz]
  obtain ⟨-, -, -, -, -, -, -, -, -, -, e0, e1⟩ := r2_idx_facts t
  refine r2_block_ext _ _ fun p q => ?_
  show k2_pay1 (F := Ideal) (iblk2 V c 0 t) (iblk2 V c 1 t) (iblk2 V c 2 t) (iblk2 V c 3 t) (iblk2 V c 4 t) (ix2 p q)
    = r2_G V c (((cfg2.win 5).blk t).view.emb (ix2 p q))
  refine (r2_pay_blocks V c t p q).trans (congrArg (r2_G V c) ?_)
  funext a; apply Fin.ext
  match a with
  | ⟨0, _⟩ => show 2000 * t.val + p.val = win2_5.index t (0 : Fin 2) * 2000 + 1 * p.val; omega
  | ⟨1, _⟩ => show q.val = win2_5.index t (1 : Fin 2) * 64 + 1 * q.val; omega

/-- An index of the 50000 × 64 array is in point t's block iff each coordinate is in the block's range on its axis. -/
theorem r2_mem_blk (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v32).slice (win2_5.rect t)).set ↔ _
  rw [View.set_slice_whole, Rect.mem_set_unit]
  exact Iff.rfl

/-- The 25 blocks of 2000 rows cover the array: row r is in the block of point r / 2000. -/
theorem r2_cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  let t : Fin cfg2.N := ⟨(i 0).val / 2000, by rw [r2_N]; omega⟩
  have ht : t.val = (i 0).val / 2000 := rfl
  obtain ⟨-, -, -, -, -, -, -, -, -, -, e0, e1⟩ := r2_idx_facts t
  refine ⟨t, flush2_5 t, ?_⟩
  rw [r2_mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The third region's output array, whatever the region finds in its five input arrays: the last (affine) layer of
    those arrays. -/
theorem region2_value (c : Dev nD) :
    (dat2 (F := Ideal) V c).arrAt 5 cfg2.N
      = Cert.Sage.lastLayer (V c main_v24) (V c main_v30) (V c main_arg9) (V c main_arg10)
          (fun j => V c main_v31 (ix2 (0 : Fin 1) j)) :=
  (dat2 (F := Ideal) V c).arrAt_eq_of_cover 5 (r2_G V c) (fun t _ => r2_flushed_eq V c t) r2_cover

end Cert.KernelIdeal.RegionValue

end
-- ==== Proof.KValue.lean ====
/-
  The kernel program's result buffer as the three-layer network of the launch memory.

  Each region's output array is its layer of the arrays the region finds; what it finds is the previous region's
  output array (or the argument, for the first), that array's neighbour aggregation, and the layer's weights and
  bias as launched.  Substituting region by region gives the network, its aggregation the masked row selection
  followed by the scatter-add and the degree scaling.
-/
import proofs.«410790_j17428977287557_1_alg».proof.Proof.KHost
import proofs.«410790_j17428977287557_1_alg».proof.Proof.KRegion0
import proofs.«410790_j17428977287557_1_alg».proof.Proof.KRegion1
import proofs.«410790_j17428977287557_1_alg».proof.Proof.KRegion2

set_option maxRecDepth 16384

noncomputable section

namespace Cert.KernelIdeal.NetworkValue

open Cert.KernelIdeal Cert.KernelIdeal.Gen Cert.KernelIdeal.HostChain
open Cert.KernelIdeal.HostValue Cert.KernelIdeal.RegionValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first region's output array: the first layer of the arguments. -/
theorem layer0 (c : Dev nD) :
    (dat0 (F := Ideal) (V3 m ρ) c).arrAt 5 cfg0.N
      = Cert.Sage.normLayer (m ((c : Thread nD τ).loc main_arg0)) ((fun h => aggregate (F := Ideal) (takeRows (F := Ideal) h (m ((c : Thread nD τ).loc main_arg1))) (m ((c : Thread nD τ).loc main_arg2)) (invDeg (F := Ideal) (m ((c : Thread nD τ).loc main_arg2)))) (m ((c : Thread nD τ).loc main_arg0))) (m ((c : Thread nD τ).loc main_arg3)) (m ((c : Thread nD τ).loc main_arg4))
          (fun j => (m ((c : Thread nD τ).loc main_arg5)) (ix1 j)) := by
  rw [region0_value, entry0_h, entry0_hn, entry0_ws, entry0_wn,
    show (fun j => V3 m ρ c main_v15 (ix2 (0 : Fin 1) j)) = fun j => (m ((c : Thread nD τ).loc main_arg5)) (ix1 j) from funext (entry0_b m ρ c)]

/-- The second region's output array: the second layer of the first layer's output. -/
theorem layer1 (c : Dev nD) (l0 : Cert.Sage.Nodes128) (h0 : (dat0 (F := Ideal) (V3 m ρ) c).arrAt 5 cfg0.N = l0) :
    (dat1 (F := Ideal) (V6 m ρ) c).arrAt 5 cfg1.N
      = Cert.Sage.normLayer l0 ((fun h => aggregate (F := Ideal) (takeRows (F := Ideal) h (m ((c : Thread nD τ).loc main_arg1))) (m ((c : Thread nD τ).loc main_arg2)) (invDeg (F := Ideal) (m ((c : Thread nD τ).loc main_arg2)))) l0) (m ((c : Thread nD τ).loc main_arg6)) (m ((c : Thread nD τ).loc main_arg7))
          (fun j => (m ((c : Thread nD τ).loc main_arg8)) (ix1 j)) := by
  rw [region1_value, entry1_h, entry1_hn, entry1_ws, entry1_wn, h0,
    show (fun j => V6 m ρ c main_v23 (ix2 (0 : Fin 1) j)) = fun j => (m ((c : Thread nD τ).loc main_arg8)) (ix1 j) from funext (entry1_b m ρ c)]

/-- The third region's output array: the last layer of the second layer's output. -/
theorem layer2 (c : Dev nD) (l1 : Cert.Sage.Nodes128) (h1 : (dat1 (F := Ideal) (V6 m ρ) c).arrAt 5 cfg1.N = l1) :
    (dat2 (F := Ideal) (V9 m ρ) c).arrAt 5 cfg2.N
      = Cert.Sage.lastLayer l1 ((fun h => aggregate (F := Ideal) (takeRows (F := Ideal) h (m ((c : Thread nD τ).loc main_arg1))) (m ((c : Thread nD τ).loc main_arg2)) (invDeg (F := Ideal) (m ((c : Thread nD τ).loc main_arg2)))) l1) (m ((c : Thread nD τ).loc main_arg9)) (m ((c : Thread nD τ).loc main_arg10))
          (fun j => (m ((c : Thread nD τ).loc main_arg11)) (ix1 j)) := by
  rw [region2_value, entry2_h, entry2_hn, entry2_ws, entry2_wn, h1,
    show (fun j => V9 m ρ c main_v31 (ix2 (0 : Fin 1) j)) = fun j => (m ((c : Thread nD τ).loc main_arg11)) (ix1 j) from funext (entry2_b m ρ c)]

/-- The result buffer at the end of the run is the network of the launch memory. -/
theorem result_network (c : Dev nD) :
    W10 m ρ c (Proc.devRef .tc main_v32)
      = Cert.Sage.network (fun h => aggregate (F := Ideal) (takeRows (F := Ideal) h (m ((c : Thread nD τ).loc main_arg1))) (m ((c : Thread nD τ).loc main_arg2)) (invDeg (F := Ideal) (m ((c : Thread nD τ).loc main_arg2))))
          (m ((c : Thread nD τ).loc main_arg0)) (m ((c : Thread nD τ).loc main_arg3)) (m ((c : Thread nD τ).loc main_arg4)) (fun j => (m ((c : Thread nD τ).loc main_arg5)) (ix1 j))
          (m ((c : Thread nD τ).loc main_arg6)) (m ((c : Thread nD τ).loc main_arg7)) (fun j => (m ((c : Thread nD τ).loc main_arg8)) (ix1 j))
          (m ((c : Thread nD τ).loc main_arg9)) (m ((c : Thread nD τ).loc main_arg10)) (fun j => (m ((c : Thread nD τ).loc main_arg11)) (ix1 j)) := by
  rw [result, layer2 m ρ c _ (layer1 m ρ c _ (layer0 m ρ c))]
  rfl

end Cert.KernelIdeal.NetworkValue

end
-- ==== Proof.PreSrc.lean ====
/-
  What the precondition says about the edge sources: every source index lies in 0 … 49999, so the wrap-around
  leaves it alone, the range test holds on every edge, and the masked row selection is the plain gather.
-/
import proofs.«410790_j17428977287557_1_alg».proof.Defs
import proofs.«410790_j17428977287557_1_alg».proof.Proof.KHostDefs
import proofs.«410790_j17428977287557_1_alg».proof.Proof.Gen.KernelIdeal
import proofs.«410790_j17428977287557_1_alg».proof.Proof.Gen.Pre_finite_inputs
import Idealize.ShloMosaic.Lib.StableHlo.Predicate
import Idealize.ShloMosaic.Lib.ReduceAll
import Idealize.ShloMosaic.Lib.ValueIdx

noncomputable section

namespace Cert.KernelIdeal.SrcRange

open Cert.KernelIdeal Cert.KernelIdeal.HostChain
open Idealize.ShloMosaic Idealize.ShloMosaic.TcCoe Idealize.ShloMosaic.ValueIdx Idealize.SL.Sem

/-- The scalar shape has one index. -/
local instance scalar_idx_subsingleton : Subsingleton Cert.Pre_finite_inputs.S_.Idx := ⟨fun a b => funext fun d => d.elim0⟩

/-- A left fold by `and` over bits that are all 1 returns the bit it started from. -/
theorem foldl_andi_of_ones {ι : Type} (f : ι → BitVec 1) (hf : ∀ n, f n = 1#1) :
    ∀ (l : List ι) (init : BitVec 1), l.foldl (fun r n => IntOp.andi r (f n)) init = init
  | [], _ => rfl
  | a :: l, init => by
    rw [List.foldl_cons, foldl_andi_of_ones f hf l, hf a]
    revert init; decide

/-- An `and`-reduction that starts at 1 and runs over an array of 1s is 1 at every result index. -/
theorem reduce_andi_of_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, foldl_andi_of_ones x hx, hinit]

/-- THE PRECONDITION READ AT THE EDGE SOURCES: its last two conjuncts are `all (0 ≤ src)` and `all (src < 50000)`, signed;
    each `all` that is 1 had a 1 at every edge. -/
theorem src_range (m : (ℓ : Loc nD τ sig) → Buf (Elt Ideal) ℓ) (hpre : Cert.Pre_KernelIdeal m) (c : Dev nD) (i : S800000.Idx) :
    IntOp.cmpi .sge ((m ((c : Thread nD τ).loc main_arg1) : IVec S800000 32) i) 0#32 = 1#1
      ∧ IntOp.cmpi .slt ((m ((c : Thread nD τ).loc main_arg1) : IVec S800000 32) i) 50000#32 = 1#1 := by
  have e := congrFun (hpre c) ix0
  dsimp only [Cert.Pre_finite_inputs.fn, Cert.Pre_finite_inputs.fn_part1, Cert.Pre_finite_inputs.fn_part2,
    Cert.Pre_finite_inputs.fn_part3] at e
  obtain ⟨h52, h55⟩ := IntOp.andi_eq_one.1 e
  obtain ⟨-, h51⟩ := IntOp.andi_eq_one.1 h52
  exact ⟨Host.reduce_andi_all _ _ _ _ _ h51 i, Host.reduce_andi_all _ _ _ _ _ h55 i⟩

section Range

variable (src : IVec S800000 32) (hge : ∀ i, IntOp.cmpi .sge (src i) 0#32 = 1#1)
  (hlt : ∀ i, IntOp.cmpi .slt (src i) 50000#32 = 1#1)
include hge

/-- No source index is negative, so the wrap-around's select keeps every index as it is. -/
theorem select_nonneg {z a : IVec S800000 32} (hz : ∀ k, z k = 0#32) : select (cmpi .slt src z) a src = src := by
  funext k
  have h : ¬ IntOp.cmpi .slt (src k) (z k) = 1#1 := by
    rw [hz k, IntOp.cmpi_slt]
    have h0 := IntOp.cmpi_sge.1 (hge k)
    rw [show (0#32 : BitVec 32).toInt = 0 from by decide] at h0 ⊢
    omega
  rw [select_apply]
  show Scalar.select (IntOp.cmpi .slt (src k) (z k)) _ _ = _
  rw [eq_zero_of_ne_one h, select_zero]

/-- Every entry of the wrapped index column is one of the source indices. -/
theorem wrapIdx_mem (i : S800000x1.Idx) : ∃ k, wrapIdx src i = src k :=
  ⟨_, congrFun (select_nonneg src hge (fun _ => rfl)) _⟩

include hlt

/-- Both range tests hold at every entry of the wrapped index column. -/
theorem wrapIdx_tests (i : S800000x1.Idx) :
    IntOp.cmpi .sge (wrapIdx src i) 0#32 = 1#1 ∧ IntOp.cmpi .sle (wrapIdx src i) 49999#32 = 1#1 := by
  obtain ⟨k, hk⟩ := wrapIdx_mem src hge i
  rw [hk]
  refine ⟨hge k, ?_⟩
  have h1 := IntOp.cmpi_slt.1 (hlt k)
  rw [show (50000#32 : BitVec 32).toInt = 50000 from by decide] at h1
  rw [IntOp.cmpi_sle, show (49999#32 : BitVec 32).toInt = 49999 from by decide]
  omega

/-- The range mask is 1 on every edge. -/
theorem inRange_one (e : S800000.Idx) : inRange src e = 1#1 := by
  unfold inRange
  refine reduce_andi_of_ones _ _ _ _ rfl (fun i => ?_) e
  obtain ⟨h0, h1⟩ := wrapIdx_tests src hge hlt i
  exact IntOp.andi_eq_one.2 ⟨h0, h1⟩

end Range

/-- Under the precondition no edge is out of range, so selecting rows under the range mask is gathering them. -/
theorem takeRows_eq_gatherRows (m : (ℓ : Loc nD τ sig) → Buf (Elt Ideal) ℓ) (hpre : Cert.Pre_KernelIdeal m) (c : Dev nD)
    (h : FVec Ideal S50000x128 .f32) :
    takeRows h (m ((c : Thread nD τ).loc main_arg1)) = gatherRows h (m ((c : Thread nD τ).loc main_arg1)) := by
  have hr := src_range m hpre c
  funext j
  unfold takeRows
  rw [select_apply]
  show Scalar.select (inRange _ _) _ _ = _
  rw [inRange_one _ (fun i => (hr i).1) (fun i => (hr i).2), select_one]

end Cert.KernelIdeal.SrcRange

end
-- ==== Proof.RHostDefs.lean ====
/-
  The host-side neighbour aggregation of `ReferenceIdeal`, named once as functions of the arrays it reads, so that the
  certificate can carry it as one opaque term.  Edge e sends row idx(e) of `h` to node dst(e); a node's
  aggregate is the sum of the rows sent to it, times the reciprocal of max(in-degree, 1).
-/
import proofs.«410790_j17428977287557_1_alg».proof.ReferenceIdeal

noncomputable section

namespace Cert.ReferenceIdeal.HostChain

open Cert.ReferenceIdeal Idealize.ShloMosaic Idealize.ShloMosaic.TcCoe

variable [Cert.ReferenceIdeal.Facts]
open Cert.ReferenceIdeal.Facts₀ Cert.ReferenceIdeal.Facts
variable {F : FTy → Type} [FloatOps F]

/-- 1 / max(in-degree, 1) per node, as a column: the in-degree is the scatter-add of ones along `dst`. -/
def invDeg (dst : IVec S800000 32) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- The source indices with a negative index counted from the end (src + 50000 where src < 0), as a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One row of `h` per edge: row wrapIdx(e), the index clamped into range by the gather itself. -/
def gatherRows (h : FVec F S50000x128 .f32) (src : IVec S800000 32) : FVec F S800000x128 .f32 :=
  Host.gather gather_S50000x128_S800000x1_S800000x128_1_0_n_n_0_1_1128 h (wrapIdx src)

/-- The rows summed into their destination nodes and scaled by the reciprocal degree column `inv`. -/
def aggregate (rows : FVec F S800000x128 .f32) (dst : IVec S800000 32) (inv : FVec F S50000x1 .f32) : FVec F S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) rows)
    (broadcastInDim S50000x128 ![0, 1] bcast_S50000x1_S50000x128_0_1 inv)

end Cert.ReferenceIdeal.HostChain

end
-- ==== Proof.RLayers.lean ====
/-
  The reference's result, stage by stage, is the three-layer network of the specification, its neighbour
  aggregation the host chain of `gatherRows` / `aggregate` / `invDeg`.
-/
import proofs.«410790_j17428977287557_1_alg».proof.Proof.Gen.ReferenceIdeal.Read
import proofs.«410790_j17428977287557_1_alg».proof.Proof.RHostDefs
import proofs.«410790_j17428977287557_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.LayerValue

open Cert.ReferenceIdeal Cert.ReferenceIdeal.Gen Cert.ReferenceIdeal.HostChain
open Idealize.ShloMosaic Idealize.ShloMosaic.TcCoe Idealize.ShloMosaic.ValueIdx

open Cert.ReferenceIdeal.Read

/-! ### The neighbour aggregation of each layer is the host chain -/

/-- The reciprocal-degree column the three layers share. -/
theorem recipDegree_eq (x2 : (⟨S800000, .i32⟩ : BufTy).Contents (Elt Ideal)) :
    val_main_v8 (F := Ideal) x2 = invDeg (F := Ideal) x2 := by
  unfold val_main_v8 val_main_v7 val_main_v6 val_main_v5 val_main_v4 val_main_v3 val_main_v2 val_main_v1 val_main_v0
    val_main_cst val_main_cst_0 val_main_cst_1 val_main_cst_2 invDeg
  rfl

/-- Layer 0 aggregates the input features. -/
theorem aggregate0_eq (x0 : (⟨S50000x128, .f32⟩ : BufTy).Contents (Elt Ideal)) (x1 x2 : (⟨S800000, .i32⟩ : BufTy).Contents (Elt Ideal)) :
    val_main_v20 (F := Ideal) x0 x1 x2
      = aggregate (F := Ideal) (gatherRows (F := Ideal) x0 x1) x2 (invDeg (F := Ideal) x2) := by
  unfold val_main_v20 val_main_v19
  rw [recipDegree_eq]
  rfl

/-- Layer 1 aggregates layer 0's output. -/
theorem aggregate1_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v47 (F := Ideal) x0 x1 x2 x3 x4 x5
      = aggregate (F := Ideal) (gatherRows (F := Ideal) (val_main_v35 (F := Ideal) x0 x1 x2 x3 x4 x5) x1) x2
          (invDeg (F := Ideal) x2) := by
  unfold val_main_v47 val_main_v46
  rw [recipDegree_eq]
  rfl

/-- Layer 2 aggregates layer 1's output. -/
theorem aggregate2_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v74 (F := Ideal) x0 x1 x2 x3 x4 x5 x6 x7 x8
      = aggregate (F := Ideal) (gatherRows (F := Ideal) (val_main_v62 (F := Ideal) x0 x1 x2 x3 x4 x5 x6 x7 x8) x1) x2
          (invDeg (F := Ideal) x2) := by
  unfold val_main_v74 val_main_v73
  rw [recipDegree_eq]
  rfl

/-! ### Layer 0: the affine map of the features and their aggregate, each row clamped and scaled -/

/-- The node's own features are read along row p, the weight down column q. -/
theorem lhsSelf0 (p : Fin 50000) (q k : Fin 128) : lidx_main_v21 (ix2 p q) k = ix2 p k := funext fun a => Fin.ext (by match a with | ⟨0, _⟩ => rfl | ⟨1, _⟩ => rfl)
theorem rhsSelf0 (p : Fin 50000) (q k : Fin 128) : ridx_main_v21 (ix2 p q) k = ix2 k q := funext fun a => Fin.ext (by match a with | ⟨0, _⟩ => rfl | ⟨1, _⟩ => rfl)
/-- The same for the aggregated neighbour features. -/
theorem lhsNbr0 (p : Fin 50000) (q k : Fin 128) : lidx_main_v22 (ix2 p q) k = ix2 p k := funext fun a => Fin.ext (by match a with | ⟨0, _⟩ => rfl | ⟨1, _⟩ => rfl)
theorem rhsNbr0 (p : Fin 50000) (q k : Fin 128) : ridx_main_v22 (ix2 p q) k = ix2 k q := funext fun a => Fin.ext (by match a with | ⟨0, _⟩ => rfl | ⟨1, _⟩ => rfl)
/-- The bias, spread over the rows, is read at the column. -/
theorem biasCol0 (p : Fin 50000) (q : Fin 128) : idx_main_v24 (idx_main_v25 (ix2 p q)) = ix1 q := funext fun a => Fin.ext (by match a with | ⟨0, _⟩ => rfl)
/-- The row's squared length, kept as a column and spread back over the row, sums row p whatever the column. -/
theorem normRow0 (p : Fin 50000) (q k : Fin 128) :
    idx_main_v29 (idx_main_v30 (idx_main_v34 (ix2 p q))) k = ix2 p k := funext fun a => Fin.ext (by match a with | ⟨0, _⟩ => rfl | ⟨1, _⟩ => rfl)

/-- Layer 0's output is the normalising layer of the input features and their aggregate. -/
theorem layer0_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v35 (F := Ideal) x0 x1 x2 x3 x4 x5
      = Cert.Sage.normLayer x0 (val_main_v20 (F := Ideal) x0 x1 x2) x3 x4 (fun j => x5 (ix1 j)) := by
  funext i
  obtain ⟨p, q, rfl⟩ : ∃ (p : Fin 50000) (q : Fin 128), i = ix2 p q := ⟨i 0, i 1, eq_ix2 i⟩
  show _ = Cert.Sage.unitRow
    (Cert.Sage.affine128 x0 (val_main_v20 (F := Ideal) x0 x1 x2) x3 x4 (fun j => x5 (ix1 j)) p) q
  unfold Cert.Sage.unitRow Cert.Sage.affine128
  simp only [val_main_v35_apply, val_main_v34_apply, val_main_v33_apply, val_main_v32_apply, val_main_cst_6_apply,
    val_main_v31_apply, val_main_v30_apply, val_main_v29_apply, val_main_cst_5_apply, val_main_v28_apply,
    val_main_v27_apply, val_main_call0_v0_apply, val_main_call0_cst_apply, val_main_v26_apply, val_main_v25_apply,
    val_main_v24_apply, val_main_v23_apply, val_main_v22_apply, val_main_v21_apply,
    lhsSelf0, rhsSelf0, lhsNbr0, rhsNbr0, biasCol0, normRow0,
    Ideal.addf_def, Ideal.mulf_def, Ideal.maximumf_def, Ideal.hostDivf_def, Ideal.hostUnary_sqrt_def, Ideal.ofBits_def,
    Ideal.ofBits_zero_f32, zero_add]

/-! ### Layer 1: the same map of layer 0's output and its aggregate -/

/-- The node's own features are read along row p, the weight down column q. -/
theorem lhsSelf1 (p : Fin 50000) (q k : Fin 128) : lidx_main_v48 (ix2 p q) k = ix2 p k := funext fun a => Fin.ext (by match a with | ⟨0, _⟩ => rfl | ⟨1, _⟩ => rfl)
theorem rhsSelf1 (p : Fin 50000) (q k : Fin 128) : ridx_main_v48 (ix2 p q) k = ix2 k q := funext fun a => Fin.ext (by match a with | ⟨0, _⟩ => rfl | ⟨1, _⟩ => rfl)
/-- The same for the aggregated neighbour features. -/
theorem lhsNbr1 (p : Fin 50000) (q k : Fin 128) : lidx_main_v49 (ix2 p q) k = ix2 p k := funext fun a => Fin.ext (by match a with | ⟨0, _⟩ => rfl | ⟨1, _⟩ => rfl)
theorem rhsNbr1 (p : Fin 50000) (q k : Fin 128) : ridx_main_v49 (ix2 p q) k = ix2 k q := funext fun a => Fin.ext (by match a with | ⟨0, _⟩ => rfl | ⟨1, _⟩ => rfl)
/-- The bias, spread over the rows, is read at the column. -/
theorem biasCol1 (p : Fin 50000) (q : Fin 128) : idx_main_v51 (idx_main_v52 (ix2 p q)) = ix1 q := funext fun a => Fin.ext (by match a with | ⟨0, _⟩ => rfl)
/-- The row's squared length, kept as a column and spread back over the row, sums row p whatever the column. -/
theorem normRow1 (p : Fin 50000) (q k : Fin 128) :
    idx_main_v56 (idx_main_v57 (idx_main_v61 (ix2 p q))) k = ix2 p k := funext fun a => Fin.ext (by match a with | ⟨0, _⟩ => rfl | ⟨1, _⟩ => rfl)

/-- Layer 1's output is the normalising layer of layer 0's output and its aggregate. -/
theorem layer1_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v62 (F := Ideal) x0 x1 x2 x3 x4 x5 x6 x7 x8
      = Cert.Sage.normLayer (val_main_v35 (F := Ideal) x0 x1 x2 x3 x4 x5) (val_main_v47 (F := Ideal) x0 x1 x2 x3 x4 x5) x6 x7
          (fun j => x8 (ix1 j)) := by
  funext i
  obtain ⟨p, q, rfl⟩ : ∃ (p : Fin 50000) (q : Fin 128), i = ix2 p q := ⟨i 0, i 1, eq_ix2 i⟩
  show _ = Cert.Sage.unitRow
    (Cert.Sage.affine128 (val_main_v35 (F := Ideal) x0 x1 x2 x3 x4 x5) (val_main_v47 (F := Ideal) x0 x1 x2 x3 x4 x5) x6 x7
      (fun j => x8 (ix1 j)) p) q
  unfold Cert.Sage.unitRow Cert.Sage.affine128
  simp only [val_main_v62_apply, val_main_v61_apply, val_main_v60_apply, val_main_v59_apply, val_main_cst_11_apply,
    val_main_v58_apply, val_main_v57_apply, val_main_v56_apply, val_main_cst_10_apply, val_main_v55_apply,
    val_main_v54_apply, val_main_call1_v0_apply, val_main_call1_cst_apply, val_main_v53_apply, val_main_v52_apply,
    val_main_v51_apply, val_main_v50_apply, val_main_v49_apply, val_main_v48_apply,
    lhsSelf1, rhsSelf1, lhsNbr1, rhsNbr1, biasCol1, normRow1,
    Ideal.addf_def, Ideal.mulf_def, Ideal.maximumf_def, Ideal.hostDivf_def, Ideal.hostUnary_sqrt_def, Ideal.ofBits_def,
    Ideal.ofBits_zero_f32, zero_add]

/-! ### Layer 2: the affine map alone, into 64 columns -/

/-- The node's own features are read along row p, the weight down column q. -/
theorem lhsSelf2 (p : Fin 50000) (q : Fin 64) (k : Fin 128) : lidx_main_v75 (ix2 p q) k = ix2 p k := funext fun a => Fin.ext (by match a with | ⟨0, _⟩ => rfl | ⟨1, _⟩ => rfl)
theorem rhsSelf2 (p : Fin 50000) (q : Fin 64) (k : Fin 128) : ridx_main_v75 (ix2 p q) k = ix2 k q := funext fun a => Fin.ext (by match a with | ⟨0, _⟩ => rfl | ⟨1, _⟩ => rfl)
/-- The same for the aggregated neighbour features. -/
theorem lhsNbr2 (p : Fin 50000) (q : Fin 64) (k : Fin 128) : lidx_main_v76 (ix2 p q) k = ix2 p k := funext fun a => Fin.ext (by match a with | ⟨0, _⟩ => rfl | ⟨1, _⟩ => rfl)
theorem rhsNbr2 (p : Fin 50000) (q : Fin 64) (k : Fin 128) : ridx_main_v76 (ix2 p q) k = ix2 k q := funext fun a => Fin.ext (by match a with | ⟨0, _⟩ => rfl | ⟨1, _⟩ => rfl)
/-- The bias, spread over the rows, is read at the column. -/
theorem biasCol2 (p : Fin 50000) (q : Fin 64) : idx_main_v78 (idx_main_v79 (ix2 p q)) = ix1 q := funext fun a => Fin.ext (by match a with | ⟨0, _⟩ => rfl)

/-- The result is the last layer of layer 1's output and its aggregate. -/
theorem layer2_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v80 (F := Ideal) x0 x1 x2 x3 x4 x5 x6 x7 x8 x9 x10 x11
      = Cert.Sage.lastLayer (val_main_v62 (F := Ideal) x0 x1 x2 x3 x4 x5 x6 x7 x8) (val_main_v74 (F := Ideal) x0 x1 x2 x3 x4 x5 x6 x7 x8) x9 x10
          (fun j => x11 (ix1 j)) := by
  funext i
  obtain ⟨p, q, rfl⟩ : ∃ (p : Fin 50000) (q : Fin 64), i = ix2 p q := ⟨i 0, i 1, eq_ix2 i⟩
  show _ = Cert.Sage.affine64 (val_main_v62 (F := Ideal) x0 x1 x2 x3 x4 x5 x6 x7 x8) (val_main_v74 (F := Ideal) x0 x1 x2 x3 x4 x5 x6 x7 x8) x9 x10
    (fun j => x11 (ix1 j)) p q
  unfold Cert.Sage.affine64
  simp only [val_main_v80_apply, val_main_v79_apply, val_main_v78_apply, val_main_v77_apply, val_main_v76_apply,
    val_main_v75_apply, lhsSelf2, rhsSelf2, lhsNbr2, rhsNbr2, biasCol2, Ideal.addf_def]

/-! ### The three layers composed -/

/-- The reference's last stage, as a function of @main's twelve arguments, is the network. -/
theorem result_network
    (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x64, .f32⟩ : BufTy).Contents (Elt Ideal)) (x11 : (⟨S64, .f32⟩ : BufTy).Contents (Elt Ideal)) :
    Cert.ReferenceIdeal.Read.val_main_v80 (F := Ideal) x0 x1 x2 x3 x4 x5 x6 x7 x8 x9 x10 x11
      = Cert.Sage.network (fun h => aggregate (F := Ideal) (gatherRows (F := Ideal) h x1) x2 (invDeg (F := Ideal) x2))
          x0 x3 x4 (fun j => x5 (ix1 j)) x6 x7 (fun j => x8 (ix1 j)) x9 x10 (fun j => x11 (ix1 j)) := by
  unfold Cert.Sage.network
  rw [layer2_eq, aggregate2_eq, layer1_eq, aggregate1_eq, layer0_eq, aggregate0_eq]

end Cert.ReferenceIdeal.LayerValue

end
-- ==== Proof.Bridge.lean ====
/-
  The two idealized programs compute one function.

  Both results are the three-layer network of the same twelve argument arrays.  The networks differ only in the
  neighbour aggregation: one program gathers a row per edge, the other gathers the same row and then replaces it
  by a fill word where the edge's source index is outside 0 … 49999.  The precondition puts every source index
  inside that range, so the replacement never happens, and what remains on both sides is literally the same
  gather, scatter-add and degree scaling.  No law of + or · is used: the sums are the same sums.
-/
import proofs.«410790_j17428977287557_1_alg».proof.Defs
import proofs.«410790_j17428977287557_1_alg».proof.Proof.KRun
import proofs.«410790_j17428977287557_1_alg».proof.Proof.KValue
import proofs.«410790_j17428977287557_1_alg».proof.Proof.PreSrc
import proofs.«410790_j17428977287557_1_alg».proof.Proof.RLayers
import proofs.«410790_j17428977287557_1_alg».proof.Proof.Gen.ReferenceIdeal.Run
import proofs.«410790_j17428977287557_1_alg».proof.Proof.Gen.ReferenceIdeal.Read
import proofs.«410790_j17428977287557_1_alg».proof.Proof.Gen.Pre_finite_inputs

set_option maxRecDepth 16384

noncomputable section

namespace Cert.Proof.Bridge

open Idealize.ShloMosaic Idealize.ShloMosaic.TcCoe Idealize.ShloMosaic.ValueIdx Idealize.SL.Sem

/-- With every source index in range, the kernel program's aggregation (masked selection, scatter-add, degree
    scaling) is the reference's (gather, scatter-add, degree scaling), as functions of the node features. -/
theorem aggregation_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (fun h : Cert.Sage.Nodes128 =>
        Cert.KernelIdeal.HostChain.aggregate (F := Ideal)
          (Cert.KernelIdeal.HostChain.takeRows (F := Ideal) h (m ((c.tc : Thread Cert.KernelIdeal.nD Cert.KernelIdeal.τ).loc Cert.KernelIdeal.main_arg1))) (m ((c.tc : Thread Cert.KernelIdeal.nD Cert.KernelIdeal.τ).loc Cert.KernelIdeal.main_arg2))
          (Cert.KernelIdeal.HostChain.invDeg (F := Ideal) (m ((c.tc : Thread Cert.KernelIdeal.nD Cert.KernelIdeal.τ).loc Cert.KernelIdeal.main_arg2))))
      = (fun h : Cert.Sage.Nodes128 =>
        Cert.ReferenceIdeal.HostChain.aggregate (F := Ideal)
          (Cert.ReferenceIdeal.HostChain.gatherRows (F := Ideal) h (m ((c.tc : Thread Cert.KernelIdeal.nD Cert.KernelIdeal.τ).loc Cert.KernelIdeal.main_arg1))) (m ((c.tc : Thread Cert.KernelIdeal.nD Cert.KernelIdeal.τ).loc Cert.KernelIdeal.main_arg2))
          (Cert.ReferenceIdeal.HostChain.invDeg (F := Ideal) (m ((c.tc : Thread Cert.KernelIdeal.nD Cert.KernelIdeal.τ).loc Cert.KernelIdeal.main_arg2)))) := by
  funext h
  rw [Cert.KernelIdeal.SrcRange.takeRows_eq_gatherRows m hpre c h]
  rfl

/-- Run from memories that agree on the arguments, both programs end, with equal results. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v32),
    Cert.KernelIdeal.ValueRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  show Cert.ReferenceIdeal.Value.res_main_v80 m' c
    = Cert.KernelIdeal.Gen.W10 (F := Ideal) m ρ c (Proc.devRef .tc Cert.KernelIdeal.main_v32)
  rw [Cert.ReferenceIdeal.Read.val_main_v80_eq, Cert.ReferenceIdeal.LayerValue.result_network,
    Cert.KernelIdeal.NetworkValue.result_network, a0, a1, a2, a3, a4, a5, a6, a7, a8, a9, a10, a11,
    aggregation_eq m hpre c]

end Cert.Proof.Bridge

end
-- ==== Proof.lean ====
/- The certificate of the three-layer GraphSAGE kernel against its jnp reference, over the extended reals.

   The three frames: the two kernel programs' are the generated frame certificates; the reference has no kernel, and
   its frame is its run with the result dropped.  `preserves` is trivial: the idealization rewrote nothing.
   `algebraic`: both programs end with the same 50000 × 64 array.  Each dense layer is  h·Wₛ + hn·Wₙ + b  row by row
   (followed, in the first two layers, by a clamp at zero and a division of each row by max(‖row‖₂, ε)), where hn is
   the mean of the rows of h over each node's in-neighbours.  The kernel program computes the dense part in three
   tiled regions of 2000 rows and the aggregation on the host with a range-masked row selection; the reference
   computes everything on the host with a plain gather.  Under the precondition (finite float inputs, every edge
   source an index of a node) the mask is everywhere true and the two are the same function (Proof/Bridge.lean). -/
import proofs.«410790_j17428977287557_1_alg».proof.Defs
import proofs.«410790_j17428977287557_1_alg».proof.Proof.Gen.Kernel
import proofs.«410790_j17428977287557_1_alg».proof.Proof.Gen.Kernel.Skeleton
import proofs.«410790_j17428977287557_1_alg».proof.Proof.Gen.Kernel.Launch
import proofs.«410790_j17428977287557_1_alg».proof.Proof.Gen.Kernel.Points
import proofs.«410790_j17428977287557_1_alg».proof.Proof.Gen.Kernel.Frame
import proofs.«410790_j17428977287557_1_alg».proof.Proof.Gen.KernelIdeal
import proofs.«410790_j17428977287557_1_alg».proof.Proof.Gen.KernelIdeal.Skeleton
import proofs.«410790_j17428977287557_1_alg».proof.Proof.Gen.KernelIdeal.Launch
import proofs.«410790_j17428977287557_1_alg».proof.Proof.Gen.KernelIdeal.Points
import proofs.«410790_j17428977287557_1_alg».proof.Proof.Gen.KernelIdeal.Frame
import proofs.«410790_j17428977287557_1_alg».proof.Proof.Gen.ReferenceIdeal
import proofs.«410790_j17428977287557_1_alg».proof.Proof.Gen.Pre_finite_inputs
import proofs.«410790_j17428977287557_1_alg».proof.Proof.Gen.ReferenceIdeal.Run
import proofs.«410790_j17428977287557_1_alg».proof.Proof.Gen.ReferenceIdeal.Read
import proofs.«410790_j17428977287557_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Bridge.algebraic⟩

end Cert.Proof

end
